-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S8192 : Shape := ⟨1, ![8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) (main_arg1 : IVec S8192 32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S8192 : Shape := ⟨1, ![8192]⟩
abbrev S8192x1 : Shape := ⟨2, ![8192, 1]⟩
abbrev S16x1x8192 : Shape := ⟨3, ![16, 1, 8192]⟩
abbrev S512x8192 : Shape := ⟨2, ![512, 8192]⟩
abbrev S512x1 : Shape := ⟨2, ![512, 1]⟩
abbrev S1x1x8192 : Shape := ⟨3, ![1, 1, 8192]⟩
abbrev S512 : Shape := ⟨1, ![512]⟩
abbrev S1x8192 : Shape := ⟨2, ![1, 8192]⟩
abbrev S16x8192 : Shape := ⟨2, ![16, 8192]⟩
abbrev S_ : Shape := ⟨0, ![]⟩
abbrev S8192x2 : Shape := ⟨2, ![8192, 2]⟩

abbrev nBuf : Space → Nat
  | .hbm => 51
  | .vmem => 6
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192x1, .f32⟩
  | .hbm, ⟨3, _⟩ => ⟨S16x1x8192, .f32⟩
  | .hbm, ⟨4, _⟩ => ⟨S8192, .f32⟩
  | .hbm, ⟨5, _⟩ => ⟨S16x8192, .f32⟩
  | .hbm, ⟨6, _⟩ => ⟨S_, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S8192x1, .i32⟩
  | .hbm, ⟨26, _⟩ => ⟨S8192x1, .i32⟩
  | .hbm, ⟨27, _⟩ => ⟨S8192x2, .i32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .i32⟩
  | .hbm, ⟨35, _⟩ => ⟨S8192, .i32⟩
  | .hbm, ⟨36, _⟩ => ⟨S8192, .i1⟩
  | .hbm, ⟨37, _⟩ => ⟨S_, .i32⟩
  | .hbm, ⟨38, _⟩ => ⟨S8192, .i32⟩
  | .hbm, ⟨39, _⟩ => ⟨S8192, .i32⟩
  | .hbm, ⟨40, _⟩ => ⟨S8192, .i32⟩
  | .hbm, ⟨41, _⟩ => ⟨S8192x1, .i32⟩
  | .hbm, ⟨42, _⟩ => ⟨S8192, .f32⟩
  | .hbm, ⟨43, _⟩ => ⟨S8192, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512x1, .f32⟩
  | .local _ .vmem, ⟨3, _⟩ => ⟨S512x1, .f32⟩
  | .local _ .vmem, ⟨4, _⟩ => ⟨S1x1x8192, .f32⟩
  | .local _ .vmem, ⟨5, _⟩ => ⟨S1x1x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_c_5 : Ref sig .tc := ⟨.hbm, 34, rfl⟩
abbrev main_v24 : Ref sig .tc := ⟨.hbm, 35, rfl⟩
abbrev main_v25 : Ref sig .tc := ⟨.hbm, 36, rfl⟩
abbrev main_c_6 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_cst_8 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  reduces_S512x8192_S8192 : S512x8192.Reduces [0] S8192
  shapeCasts_S8192_S1x8192 : S8192.ShapeCasts S1x8192
  shapeCasts_S1x8192_S1x1x8192 : S1x8192.ShapeCasts S1x1x8192
  inb_S1x1x8192_S1x1x8192_0_0_0 : ∀ a, (![0, 0, 0] : Fin 3 → Nat) a + S1x1x8192.size a ≤ S1x1x8192.size a
  h_S1x1x8192 : 0 < S1x1x8192.numel
  shapeCasts_S8192x1_S8192 : S8192x1.ShapeCasts S8192
  shapeCasts_S16x1x8192_S16x8192 : S16x1x8192.ShapeCasts S16x8192
  reducesTo_S16x8192_S8192_d0 : S16x8192.ReducesTo [0] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1
  reducesTo_S8192_S_d0 : S8192.ReducesTo [0] S_
  gather_S8192x8192_S8192x2_S8192_n_01_n_n_01_1_11_wf : GatherDims.WF S8192x8192 S8192x2 S8192 [] [0, 1] [] [0, 1] [] 1 ![1, 1]
  gather_S8192_S8192x1_S8192_n_0_n_n_0_1_1_wf : GatherDims.WF S8192 S8192x1 S8192 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x8192.size a ≤ S8192x8192.size a
  hwx0_0 : ∀ i : grid0.Coords, EltTy.bits .f32 = 32 ∨ (Rect.block (s := S8192x8192) S512x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S16x1x8192.size a
  hwx0_2 : ∀ i : grid0.Coords, EltTy.bits .f32 = 32 ∨ (Rect.block (s := S16x1x8192) S1x1x8192.size (cc0_transform_2 i) (hinb0_2 i)).WholeWords (EltTy.packing .f32)

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf
def gather_S8192_S8192x1_S8192_n_0_n_n_0_1_1 : GatherDims S8192 S8192x1 S8192 where
  offsetDims := []
  collapsedSliceDims := [0]
  operandBatchingDims := []
  startIndicesBatchingDims := []
  startIndexMap := [0]
  indexVectorDim := 1
  sliceSizes := ![1]
  wf := gather_S8192_S8192x1_S8192_n_0_n_n_0_1_1_wf

abbrev win0_0 : Pipeline.Window sig grid0 :=
  Pipeline.Window.ofSpec (Memref.whole main_arg0) S512x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S512x1.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x8192 : Shape := ⟨2, ![8192, 8192]⟩
abbrev S8192 : Shape := ⟨1, ![8192]⟩
abbrev S_ : Shape := ⟨0, ![]⟩
abbrev S8192x1 : Shape := ⟨2, ![8192, 1]⟩
abbrev S8192x2 : Shape := ⟨2, ![8192, 2]⟩
abbrev S1x8192 : Shape := ⟨2, ![1, 8192]⟩

abbrev nBuf : Space → Nat
  | .hbm => 82
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192, .i32⟩
  | .hbm, ⟨2, _⟩ => ⟨S8192, .i32⟩
  | .hbm, ⟨3, _⟩ => ⟨S_, .f32⟩
  | .hbm, ⟨4, _⟩ => ⟨S8192, .f32⟩
  | .hbm, ⟨5, _⟩ => ⟨S_, .f32⟩
  | .hbm, ⟨6, _⟩ => ⟨S8192, .f32⟩
  | .hbm, ⟨7, _⟩ => ⟨S8192, .f32⟩
  | .hbm, ⟨8, _⟩ => ⟨S8192x1, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S8192x8192, .f32⟩
  | .hbm, ⟨17, _⟩ => ⟨S8192x8192, .f32⟩
  | .hbm, ⟨18, _⟩ => ⟨S_, .i32⟩
  | .hbm, ⟨19, _⟩ => ⟨S8192, .i32⟩
  | .hbm, ⟨20, _⟩ => ⟨S8192, .i1⟩
  | .hbm, ⟨21, _⟩ => ⟨S_, .i32⟩
  | .hbm, ⟨22, _⟩ => ⟨S8192, .i32⟩
  | .hbm, ⟨23, _⟩ => ⟨S8192, .i32⟩
  | .hbm, ⟨24, _⟩ => ⟨S8192, .i32⟩
  | .hbm, ⟨25, _⟩ => ⟨S_, .i32⟩
  | .hbm, ⟨26, _⟩ => ⟨S8192, .i32⟩
  | .hbm, ⟨27, _⟩ => ⟨S8192, .i1⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x1, .i32⟩
  | .hbm, ⟨34, _⟩ => ⟨S8192x2, .i32⟩
  | .hbm, ⟨35, _⟩ => ⟨S8192, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S8192, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S1x8192, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S8192, .f32⟩
  | .hbm, ⟨52, _⟩ => ⟨S1x8192, .f32⟩
  | .hbm, ⟨53, _⟩ => ⟨S1x8192, .f32⟩
  | .hbm, ⟨54, _⟩ => ⟨S8192x8192, .f32⟩
  | .hbm, ⟨55, _⟩ => ⟨S8192x8192, .f32⟩
  | .hbm, ⟨56, _⟩ => ⟨S_, .i32⟩
  | .hbm, ⟨57, _⟩ => ⟨S8192, .i32⟩
  | .hbm, ⟨58, _⟩ => ⟨S8192, .i1⟩
  | .hbm, ⟨59, _⟩ => ⟨S_, .i32⟩
  | .hbm, ⟨60, _⟩ => ⟨S8192, .i32⟩
  | .hbm, ⟨61, _⟩ => ⟨S8192, .i32⟩
  | .hbm, ⟨62, _⟩ => ⟨S8192, .i32⟩
  | .hbm, ⟨63, _⟩ => ⟨S_, .i32⟩
  | .hbm, ⟨64, _⟩ => ⟨S8192, .i32⟩
  | .hbm, ⟨65, _⟩ => ⟨S8192, .i1⟩
  | .hbm, ⟨66, _⟩ => ⟨S_, .i32⟩
  | .hbm, ⟨67, _⟩ => ⟨S8192, .i32⟩
  | .hbm, ⟨68, _⟩ => ⟨S8192, .i32⟩
  | .hbm, ⟨69, _⟩ => ⟨S8192, .i32⟩
  | .hbm, ⟨70, _⟩ => ⟨S8192x1, .i32⟩
  | .hbm, ⟨71, _⟩ => ⟨S8192x1, .i32⟩
  | .hbm, ⟨72, _⟩ => ⟨S8192x2, .i32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v1 : Ref sig .tc := ⟨.hbm, 17, rfl⟩
abbrev main_c : Ref sig .tc := ⟨.hbm, 18, rfl⟩
abbrev main_v2 : Ref sig .tc := ⟨.hbm, 19, rfl⟩
abbrev main_v3 : Ref sig .tc := ⟨.hbm, 20, rfl⟩
abbrev main_c_0 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst : Ref sig .tc := ⟨.hbm, 36, rfl⟩
abbrev main_v16 : Ref sig .tc := ⟨.hbm, 37, rfl⟩
abbrev main_cst_3 : Ref sig .tc := ⟨.hbm, 38, rfl⟩
abbrev main_v17 : Ref sig .tc := ⟨.hbm, 39, rfl⟩
abbrev main_v18 : Ref sig .tc := ⟨.hbm, 40, rfl⟩
abbrev main_call1_cst : Ref sig .tc := ⟨.hbm, 41, rfl⟩
abbrev main_call1_v0 : Ref sig .tc := ⟨.hbm, 42, rfl⟩
abbrev main_call1_cst_0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_v6 : Ref sig .tc := ⟨.hbm, 49, rfl⟩
abbrev main_call1_cst_1 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_v19 : Ref sig .tc := ⟨.hbm, 55, rfl⟩
abbrev main_c_4 : Ref sig .tc := ⟨.hbm, 56, rfl⟩
abbrev main_v20 : Ref sig .tc := ⟨.hbm, 57, rfl⟩
abbrev main_v21 : Ref sig .tc := ⟨.hbm, 58, rfl⟩
abbrev main_c_5 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_c_6 : Ref sig .tc := ⟨.hbm, 63, rfl⟩
abbrev main_v25 : Ref sig .tc := ⟨.hbm, 64, rfl⟩
abbrev main_v26 : Ref sig .tc := ⟨.hbm, 65, rfl⟩
abbrev main_c_7 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_cst_8 : Ref sig .tc := ⟨.hbm, 74, rfl⟩
abbrev main_v34 : Ref sig .tc := ⟨.hbm, 75, rfl⟩
abbrev main_v35 : Ref sig .tc := ⟨.hbm, 76, rfl⟩
abbrev main_cst_9 : Ref sig .tc := ⟨.hbm, 77, rfl⟩
abbrev main_v36 : Ref sig .tc := ⟨.hbm, 78, rfl⟩
abbrev main_v37 : Ref sig .tc := ⟨.hbm, 79, rfl⟩
abbrev main_cst_10 : Ref sig .tc := ⟨.hbm, 80, rfl⟩
abbrev main_v38 : Ref sig .tc := ⟨.hbm, 81, rfl⟩

abbrev nD : Nat := 1
abbrev τ : Topo := Topo.v7x

variable {F : FTy → Type} [FloatOps F]

class Facts₀ : Prop where
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  concatenates_S8192x1_S8192x1_S8192x2_d1 : Shape.Concatenates [S8192x1, S8192x1] S8192x2 1
  reducesTo_S8192_S_d0 : S8192.ReducesTo [0] S_
  reducesTo_S8192x8192_S8192_d0 : S8192x8192.ReducesTo [0] S8192
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  gather_S8192x8192_S8192x2_S8192_n_01_n_n_01_1_11_wf : GatherDims.WF S8192x8192 S8192x2 S8192 [] [0, 1] [] [0, 1] [] 1 ![1, 1]

variable [Facts₀]

def gather_S8192x8192_S8192x2_S8192_n_01_n_n_01_1_11 : GatherDims S8192x8192 S8192x2 S8192 where
  offsetDims := []
  collapsedSliceDims := [0, 1]
  operandBatchingDims := []
  startIndicesBatchingDims := []
  startIndexMap := [0, 1]
  indexVectorDim := 1
  sliceSizes := ![1, 1]
  wf := gather_S8192x8192_S8192x2_S8192_n_01_n_n_01_1_11_wf

class Facts : Prop extends Facts₀ where

variable [Facts]
-- ==== Proof.LibPointGather.lean ====
/-
  A host gather of single elements of a rank-2 table at a column of index PAIRS, read at an index.

  What x[rows, cols] of a table [R, C] lowers to when rows and cols are flat arrays of one length N: the start indices are
  [N, 2], row n holding the pair; both operand axes are collapsed and both are named by the start index map. Result
  element n is the table at the pair of row n, each component read signed and clamped into its axis.
-/
import Idealize.ShloMosaic.PureOps.Ideal
import Idealize.ShloMosaic.Lib.ValueIdx

noncomputable section

namespace Cert.Lib.PointGather

open Idealize.ShloMosaic Idealize.ShloMosaic.ValueIdx

variable {α : Type}

/-- A flat index's coordinate is below the extent. -/
theorem idx1_lt {n : Nat} (j : (⟨1, ![n]⟩ : Shape).Idx) : (j 0).val < n := (j 0).isLt

/-- The dimension numbers of x[rows, cols] for a table [R, C] and start indices [N, 2]: result [N]. -/
abbrev pointDims (R C N : Nat)
    (wf : GatherDims.WF ⟨2, ![R, C]⟩ ⟨2, ![N, 2]⟩ ⟨1, ![N]⟩ [] [0, 1] [] [0, 1] [] 1 ![1, 1]) :
    GatherDims ⟨2, ![R, C]⟩ ⟨2, ![N, 2]⟩ ⟨1, ![N]⟩ where
  offsetDims := []
  collapsedSliceDims := [0, 1]
  operandBatchingDims := []
  startIndicesBatchingDims := []
  startIndexMap := [0, 1]
  indexVectorDim := 1
  sliceSizes := ![1, 1]
  wf := wf

/-- Component k of the pair result element y reads sits at row y, column k of the start indices. -/
theorem point_siIdx {R C N : Nat}
    (wf : GatherDims.WF ⟨2, ![R, C]⟩ ⟨2, ![N, 2]⟩ ⟨1, ![N]⟩ [] [0, 1] [] [0, 1] [] 1 ![1, 1])
    (y : (⟨1, ![N]⟩ : Shape).Idx) (k : Fin 2) :
    (pointDims R C N wf).siIdx y ⟨k.val, k.isLt⟩ = ix2 (⟨(y 0).val, idx1_lt y⟩ : Fin N) k := by
  funext b; refine Fin.ext ?_
  match b with
  | ⟨0, _⟩ => rfl
  | ⟨1, _⟩ => rfl

/-- The gather read at position y: the table at the pair of row y of the start indices, each component read signed and
    clamped into its axis. -/
theorem gather_point_apply {R C N w : Nat} (hR : 0 < R) (hC : 0 < C)
    (wf : GatherDims.WF ⟨2, ![R, C]⟩ ⟨2, ![N, 2]⟩ ⟨1, ![N]⟩ [] [0, 1] [] [0, 1] [] 1 ![1, 1])
    (x : (⟨2, ![R, C]⟩ : Shape).Idx → α) (idx : IVec ⟨2, ![N, 2]⟩ w) (y : (⟨1, ![N]⟩ : Shape).Idx) :
    Host.gather (pointDims R C N wf) x idx y
      = x (ix2 (⟨min (idx (ix2 (⟨(y 0).val, idx1_lt y⟩ : Fin N) (0 : Fin 2))).toInt.toNat (R - 1), by omega⟩ : Fin R)
               (⟨min (idx (ix2 (⟨(y 0).val, idx1_lt y⟩ : Fin N) (1 : Fin 2))).toInt.toNat (C - 1), by omega⟩ : Fin C)) := by
  unfold Host.gather
  congr 1
  funext a
  refine Fin.ext ?_
  have hb : ∀ a : Fin 2, (pointDims R C N wf).batchCoord y a = 0 := fun a =>
    GatherDims.batchCoord_eq_zero _ _ _ List.not_mem_nil
  have ho : ∀ a : Fin 2, (pointDims R C N wf).offCoord y a = 0 := fun a =>
    GatherDims.offCoord_eq_zero _ _ _ (fun h => ((GatherDims.mem_sKept _ _).mp h).1 (by
      match a with
      | ⟨0, _⟩ => exact List.mem_cons_self
      | ⟨1, _⟩ => exact List.mem_cons_of_mem _ List.mem_cons_self))
  match a with
  | ⟨0, _⟩ =>
    show (pointDims R C N wf).start y idx 0 + (pointDims R C N wf).batchCoord y 0 + (pointDims R C N wf).offCoord y 0 = _
    rw [hb 0, ho 0]
    simp only [Nat.add_zero]
    unfold GatherDims.start
    rw [dif_pos (show (0 : Fin 2) ∈ (pointDims R C N wf).startIndexMap from List.mem_cons_self)]
    have h := point_siIdx wf y 0
    rw [show (⟨List.idxOf (0 : Fin 2) (pointDims R C N wf).startIndexMap,
      List.idxOf_lt_length_iff.2 List.mem_cons_self⟩ : Fin (pointDims R C N wf).startIndexMap.length)
        = ⟨(0 : Fin 2).val, (0 : Fin 2).isLt⟩ from rfl, h]
    rfl
  | ⟨1, _⟩ =>
    show (pointDims R C N wf).start y idx 1 + (pointDims R C N wf).batchCoord y 1 + (pointDims R C N wf).offCoord y 1 = _
    rw [hb 1, ho 1]
    simp only [Nat.add_zero]
    unfold GatherDims.start
    rw [dif_pos (show (1 : Fin 2) ∈ (pointDims R C N wf).startIndexMap from List.mem_cons_of_mem _ List.mem_cons_self)]
    have h := point_siIdx wf y 1
    rw [show (⟨List.idxOf (1 : Fin 2) (pointDims R C N wf).startIndexMap,
      List.idxOf_lt_length_iff.2 (List.mem_cons_of_mem _ List.mem_cons_self)⟩ : Fin (pointDims R C N wf).startIndexMap.length)
        = ⟨(1 : Fin 2).val, (1 : Fin 2).isLt⟩ from rfl, h]
    rfl

end Cert.Lib.PointGather

end
-- ==== Proof.MappedIndex.lean ====
/-
  The index arithmetic both programs share.

  Each program reads, for row i, the column the integer input names for it. jnp first wraps a negative index (v < 0 is
  read as v + 8192), and the gather then reads the word signed and clamps it into the axis. The result is the column
  colOf map i, defined for every 32-bit word, in range or not: that is why no condition on the integer input is needed.
  The rows' own numbers 0 .. 8191 go through the same wrap and clamp and come out unchanged.

  Here: the wrapped array as both programs compute it, the array of index pairs (row number, mapped column) both gather
  with, and the two gathers read at a row: a table gathered at the pairs is the table at (i, colOf map i), and a flat array
  gathered at the wrapped mapping is the array at colOf map i.
-/
import Idealize.ShloMosaic.PureOps.Ideal
import Idealize.ShloMosaic.Lib.ValueIdx
import Idealize.ShloMosaic.Lib.Pipeline.Value
import Idealize.ShloMosaic.Lib.StableHlo.Predicate
import proofs.«406579_j16149077033577_3_alg».proof.Proof.LibPointGather

noncomputable section

open scoped BigOperators

namespace Cert.Loss

open Idealize.ShloMosaic Idealize.ShloMosaic.ValueIdx Idealize.ShloMosaic.StableHlo.Predicate Cert.Lib.PointGather

abbrev S0 : Shape := ⟨0, ![]⟩
abbrev SN : Shape := ⟨1, ![8192]⟩
abbrev SN1 : Shape := ⟨2, ![8192, 1]⟩
abbrev SN2 : Shape := ⟨2, ![8192, 2]⟩
abbrev SNN : Shape := ⟨2, ![8192, 8192]⟩

/-- jnp's reading of an index word: a negative one counts from the end of the axis. -/
def wrapWord (v : BitVec 32) : BitVec 32 := Scalar.select (IntOp.cmpi .slt v 0#32) (IntOp.addi v 8192#32) v

/-- The gather's reading of a start index: signed, clamped into the axis. -/
def clampWord (v : BitVec 32) : Fin 8192 := ⟨min v.toInt.toNat (8192 - 1), by omega⟩

/-- The column the integer input names for row i. -/
def colOf (map : IVec SN 32) (i : Fin 8192) : Fin 8192 := clampWord (wrapWord (map (ix1 i)))

/-- The wrapped array, as both programs compute it: compare with a broadcast 0, add a broadcast 8192, select. -/
def wrapArr (b0 : S0.BroadcastsInDim SN (![] : Fin 0 → Fin SN.rank)) (v : IVec SN 32) : IVec SN 32 :=
  select (cmpi .slt v (broadcastInDim SN ![] b0 (constantI S0 32 0#32)))
    (addi v (broadcastInDim SN ![] b0 (constantI S0 32 8192#32))) v

theorem wrapArr_apply (b0 : S0.BroadcastsInDim SN (![] : Fin 0 → Fin SN.rank)) (v : IVec SN 32) (i : SN.Idx) :
    wrapArr b0 v i = wrapWord (v i) := rfl

/-- A row's own number goes through the wrap and the clamp unchanged. -/
theorem clamp_wrap_row (i : Fin 8192) : clampWord (wrapWord (BitVec.ofNat 32 i.val)) = i := by
  have hi := i.isLt
  have hnat : (BitVec.ofNat 32 i.val).toNat = i.val := by
    simp only [BitVec.toNat_ofNat]; omega
  have hc : IntOp.cmpi .slt (BitVec.ofNat 32 i.val) 0#32 = 0#1 := by
    apply eq_zero_of_ne_one
    intro h
    have := (slt_iff_toNat (a := BitVec.ofNat 32 i.val) (b := 0#32) (by rw [hnat]; omega) (by decide)).mp h
    simp at this
  unfold wrapWord
  rw [hc, select_zero]
  apply Fin.ext
  show min (BitVec.ofNat 32 i.val).toInt.toNat (8192 - 1) = i.val
  rw [toInt_ofNat_small i.val (by omega)]
  simp only [Int.toNat_natCast]
  omega

/-- The index pairs both programs gather a table at: column 0 the rows' own numbers, column 1 the mapping, each wrapped. -/
def pairIdx (b0 : S0.BroadcastsInDim SN (![] : Fin 0 → Fin SN.rank)) (b1 : SN.BroadcastsInDim SN1 (![0] : Fin 1 → Fin SN1.rank))
    (cc : Shape.Concatenates [SN1, SN1] SN2 1) (map : IVec SN 32) : IVec SN2 32 :=
  concatenate SN2 1 [⟨SN1, broadcastInDim SN1 ![0] b1 (wrapArr b0 (iotaInDim SN 32 0))⟩,
    ⟨SN1, broadcastInDim SN1 ![0] b1 (wrapArr b0 map)⟩] cc

/-- A flat array kept as a column reads, at row n, the array at n. -/
theorem column_apply {α : Type} (b1 : SN.BroadcastsInDim SN1 (![0] : Fin 1 → Fin SN1.rank)) (v : SN.Idx → α) (n : Fin 8192) :
    broadcastInDim SN1 ![0] b1 v (ix2 n (0 : Fin 1)) = v (ix1 n) := by
  have h := bcast_col1 (n := 8192) b1 v n
  have e1 : (ixP n : SN1.Idx) = ix2 n (0 : Fin 1) := by
    funext a; match a with | ⟨0, _⟩ => rfl | ⟨1, _⟩ => rfl
  have e2 : (Shape.Idx.ofFin n : SN.Idx) = ix1 n := by
    funext a; match a with | ⟨0, _⟩ => rfl
  rw [e1, e2] at h
  exact h

/-- Row n of the pairs: its first component is the row's wrapped number. -/
theorem pairIdx_row (b0 : S0.BroadcastsInDim SN (![] : Fin 0 → Fin SN.rank)) (b1 : SN.BroadcastsInDim SN1 (![0] : Fin 1 → Fin SN1.rank))
    (cc : Shape.Concatenates [SN1, SN1] SN2 1) (map : IVec SN 32) (n : Fin 8192) :
    pairIdx b0 b1 cc map (ix2 n (0 : Fin 2)) = wrapWord (BitVec.ofNat 32 n.val) := by
  unfold pairIdx
  rw [concatenate_pair_apply_left (1 : Fin SN2.rank) _ _ cc (ix2 n (0 : Fin 2)) rfl (ix2 n (0 : Fin 1))
    (fun b => by match b with | ⟨0, _⟩ => rfl | ⟨1, _⟩ => rfl)]
  rw [column_apply, wrapArr_apply]
  rfl

/-- Row n of the pairs: its second component is the wrapped mapping of the row. -/
theorem pairIdx_col (b0 : S0.BroadcastsInDim SN (![] : Fin 0 → Fin SN.rank)) (b1 : SN.BroadcastsInDim SN1 (![0] : Fin 1 → Fin SN1.rank))
    (cc : Shape.Concatenates [SN1, SN1] SN2 1) (map : IVec SN 32) (n : Fin 8192) :
    pairIdx b0 b1 cc map (ix2 n (1 : Fin 2)) = wrapWord (map (ix1 n)) := by
  unfold pairIdx
  rw [concatenate_pair_apply_right (1 : Fin SN2.rank) _ _ cc (ix2 n (1 : Fin 2)) rfl rfl (ix2 n (0 : Fin 1))
    (fun b hb => by
      match b with
      | ⟨0, _⟩ => rfl
      | ⟨1, _⟩ => exact absurd rfl hb)
    rfl]
  rw [column_apply, wrapArr_apply]

/-- A TABLE GATHERED AT THE PAIRS reads, at row i, the table at (i, colOf map i). -/
theorem gather_pairs_apply {α : Type} (wf : GatherDims.WF SNN SN2 SN [] [0, 1] [] [0, 1] [] 1 ![1, 1])
    (b0 : S0.BroadcastsInDim SN (![] : Fin 0 → Fin SN.rank)) (b1 : SN.BroadcastsInDim SN1 (![0] : Fin 1 → Fin SN1.rank))
    (cc : Shape.Concatenates [SN1, SN1] SN2 1) (x : SNN.Idx → α) (map : IVec SN 32) (i : Fin 8192) :
    Host.gather (pointDims 8192 8192 8192 wf) x (pairIdx b0 b1 cc map) (ix1 i) = x (ix2 i (colOf map i)) := by
  refine (gather_point_apply (by decide) (by decide) wf x (pairIdx b0 b1 cc map) (ix1 i)).trans ?_
  congr 1
  funext a
  match a with
  | ⟨0, _⟩ =>
    apply Fin.ext
    show min (pairIdx b0 b1 cc map (ix2 i (0 : Fin 2))).toInt.toNat (8192 - 1) = i.val
    rw [pairIdx_row]
    exact congrArg Fin.val (clamp_wrap_row i)
  | ⟨1, _⟩ =>
    apply Fin.ext
    show min (pairIdx b0 b1 cc map (ix2 i (1 : Fin 2))).toInt.toNat (8192 - 1) = (colOf map i).val
    rw [pairIdx_col]
    rfl

/-- A FLAT ARRAY GATHERED AT THE WRAPPED MAPPING (kept as a column) reads, at row i, the array at colOf map i. -/
theorem gather_mapped_apply {α : Type} (d : GatherDims SN SN1 SN)
    (hcoll : d.collapsedSliceDims = [0]) (hob : d.operandBatchingDims = [])
    (hsim : d.startIndexMap = [0]) (hivd : d.indexVectorDim = 1)
    (b0 : S0.BroadcastsInDim SN (![] : Fin 0 → Fin SN.rank)) (b1 : SN.BroadcastsInDim SN1 (![0] : Fin 1 → Fin SN1.rank))
    (y : SN.Idx → α) (map : IVec SN 32) (i : Fin 8192) :
    Host.gather d y (broadcastInDim SN1 ![0] b1 (wrapArr b0 map)) (ix1 i) = y (ix1 (colOf map i)) := by
  have e2 : (Shape.Idx.ofFin i : SN.Idx) = ix1 i := by
    funext a; match a with | ⟨0, _⟩ => rfl
  have e1 : (ixP i : SN1.Idx) = ix2 i (0 : Fin 1) := by
    funext a; match a with | ⟨0, _⟩ => rfl | ⟨1, _⟩ => rfl
  have h := gather_take d hcoll hob hsim hivd y (broadcastInDim SN1 ![0] b1 (wrapArr b0 map)) i (by decide)
  rw [e2] at h
  refine h.trans ?_
  congr 1
  funext a
  match a with
  | ⟨0, _⟩ =>
    apply Fin.ext
    show min (broadcastInDim SN1 ![0] b1 (wrapArr b0 map) (ixP i)).toInt.toNat (8192 - 1) = (colOf map i).val
    rw [e1, column_apply, wrapArr_apply]
    rfl

/-- A flat index set is its coordinate range. -/
def idxEquiv1 {n : Nat} : (⟨1, ![n]⟩ : Shape).Idx ≃ Fin n where
  toFun j := ⟨(j 0).val, (j 0).isLt⟩
  invFun a := ix1 a
  left_inv j := (eq_ix1 j).symm
  right_inv _ := rfl

/-- A sum over the positions of a flat array is the sum over the coordinate. -/
theorem sum_idx1 {M : Type*} [AddCommMonoid M] {n : Nat} (f : (⟨1, ![n]⟩ : Shape).Idx → M) :
    ∑ j, f j = ∑ a : Fin n, f (ix1 a) :=
  (Equiv.sum_comp (idxEquiv1 (n := n)).symm f).symm

end Cert.Loss

end
-- ==== Proof.LogSumExp.lean ====
/-
  The log-sum-exp algebra behind a cross-entropy, over the reals and then in the extended reals.

  For reals f k and any real shift M,  log (sum_k exp (f k - M)) = log (sum_k exp (f k)) - M,  because
  exp (f k - M) = exp (f k) / exp M and the sum of exponentials is positive. So an entry of a log-softmax computed with a
  shift, (x - M) - log (sum_k exp (f k - M)), is x - log (sum_k exp (f k)) whatever the shift was. Summed over the rows
  and negated this is the sum of log-sum-exp minus entry, which is how the two programs spell one loss.
-/
import Idealize.ShloMosaic.PureOps.Ideal
import Idealize.ShloMosaic.PureOps.Ideal.Laws

noncomputable section

open scoped BigOperators

namespace Cert.Loss

open Idealize.ShloMosaic

/-- A finite sum of reals read in the extended reals is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of exponentials over a nonempty index set is positive. -/
theorem sum_exp_pos {ι : Type*} [Fintype ι] [Nonempty ι] (f : ι → ℝ) : 0 < ∑ k, Real.exp (f k) :=
  Finset.sum_pos (fun k _ => Real.exp_pos (f k)) Finset.univ_nonempty

/-- The logarithm of a sum of shifted exponentials is the logarithm of the unshifted sum, minus the shift. -/
theorem log_sum_exp_shift {ι : Type*} [Fintype ι] [Nonempty ι] (f : ι → ℝ) (M : ℝ) :
    Real.log (∑ k, Real.exp (f k - M)) = Real.log (∑ k, Real.exp (f k)) - M := by
  have h : ∑ k, Real.exp (f k - M) = (∑ k, Real.exp (f k)) / Real.exp M := by
    rw [Finset.sum_div]
    exact Finset.sum_congr rfl fun k _ => Real.exp_sub (f k) M
  rw [h, Real.log_div (ne_of_gt (sum_exp_pos f)) (Real.exp_ne_zero M), Real.log_exp]

/-- An entry of a log-softmax computed with any real shift is the entry minus the log-sum-exp. -/
theorem log_softmax_entry {ι : Type*} [Fintype ι] [Nonempty ι] (f : ι → ℝ) (M x : ℝ) :
    (x - M) - Real.log (∑ k, Real.exp (f k - M)) = x - Real.log (∑ k, Real.exp (f k)) := by
  rw [log_sum_exp_shift]; ring

/-- The exponential of a real, in the extended reals. -/
theorem exp_coe (r : ℝ) : Ideal.exp (r : EReal) = ((Real.exp r : ℝ) : EReal) := rfl

/-- The logarithm of a positive real, in the extended reals. -/
theorem log_coe_of_pos {r : ℝ} (h : 0 < r) : Ideal.log (r : EReal) = ((Real.log r : ℝ) : EReal) := by
  show (if r ≤ 0 then (⊥ : EReal) else (Real.log r : EReal)) = _
  rw [if_neg (not_le.mpr h)]

/-- The log-sum-exp of reals, in the extended reals: a real. -/
theorem log_sum_exp_coe {ι : Type*} [Fintype ι] [Nonempty ι] (f : ι → ℝ) :
    Ideal.log (∑ k, Ideal.exp ((f k : ℝ) : EReal)) = ((Real.log (∑ k, Real.exp (f k)) : ℝ) : EReal) := by
  simp only [exp_coe]
  rw [coe_sum, log_coe_of_pos (sum_exp_pos f)]

/-- The two spellings of the loss over the reals: the mean of log-sum-exp minus entry, twice, halved, against the
    negated mean of the log-softmax entries and the negated sum of the other log-softmax entries over the count, halved. -/
theorem loss_two_spellings {ι : Type*} [Fintype ι] (a b g p q : ι → ℝ) (n : ℝ)
    (hp : ∀ i, p i = g i - a i) (hq : ∀ i, q i = g i - b i) :
    (-((∑ i, p i) / n) + (-(∑ i, q i)) / n) / 2 = ((∑ i, (a i - g i)) / n + (∑ i, (b i - g i)) / n) / 2 := by
  have h1 : ∑ i, p i = -∑ i, (a i - g i) := by
    rw [← Finset.sum_neg_distrib]; exact Finset.sum_congr rfl fun i _ => by rw [hp]; ring
  have h2 : ∑ i, q i = -∑ i, (b i - g i) := by
    rw [← Finset.sum_neg_distrib]; exact Finset.sum_congr rfl fun i _ => by rw [hq]; ring
  rw [h1, h2]; ring

end Cert.Loss

end
-- ==== Proof.LossConsts.lean ====
/-
  The float constants both programs spell, as the extended reals their patterns denote: the divisors 8192 and 2, and the
  initial value of a maximum, minus infinity.
-/
import Idealize.ShloMosaic.PureOps.Ideal

noncomputable section

namespace Cert.Loss

open Idealize.ShloMosaic

/-- The pattern of 8192.0 denotes the real 8192. -/
theorem ofBits_8192 : Ideal.ofBits .f32 0x46000000#32 = ((8192 : ℝ) : EReal) := by
  simp [Ideal.ofBits, Ideal.ieee, -EReal.coe_mul]; norm_num

/-- The pattern of 2.0 denotes the real 2. -/
theorem ofBits_two : Ideal.ofBits .f32 0x40000000#32 = ((2 : ℝ) : EReal) := by
  simp [Ideal.ofBits, Ideal.ieee, -EReal.coe_mul]; norm_num

/-- The pattern of minus infinity denotes the bottom of the extended reals. -/
theorem ofBits_neg_inf : Ideal.ofBits .f32 0xFF800000#32 = (⊥ : EReal) := by
  simp [Ideal.ofBits, Ideal.ieee]

end Cert.Loss

end
-- ==== Proof.LossSpec.lean ====
/-
  The loss both programs compute, as one real number.

  For a real matrix xr and a column col i per row i, with L i = log (sum_k exp (xr i k)) the log-sum-exp of row i and
  K j = log (sum_r exp (xr r j)) that of column j:
      loss = ( (sum_i (L i - xr i (col i))) / 8192 + (sum_i (K (col i) - xr i (col i))) / 8192 ) / 2.
  The kernel computes it in this form; the reference computes each summand as minus a log-softmax entry.
-/
import proofs.«406579_j16149077033577_3_alg».proof.Proof.LogSumExp
import proofs.«406579_j16149077033577_3_alg».proof.Proof.LossConsts

noncomputable section

open scoped BigOperators

namespace Cert.Loss

open Idealize.ShloMosaic

/-- The loss over the reals. -/
def lossR (xr : Fin 8192 → Fin 8192 → ℝ) (col : Fin 8192 → Fin 8192) : ℝ :=
  ((∑ i, (Real.log (∑ k, Real.exp (xr i k)) - xr i (col i))) / 8192
    + (∑ i, (Real.log (∑ r, Real.exp (xr r (col i))) - xr i (col i))) / 8192) / 2

/-- A quotient of reals by a nonzero real, in the extended reals, is the real quotient. -/
theorem div_coe_coe (a b : ℝ) (hb : b ≠ 0) : Ideal.div (a : EReal) (b : EReal) = ((a / b : ℝ) : EReal) := by
  rw [Ideal.div_coe hb, ← EReal.coe_mul, mul_one_div]

/-- A quotient by the pattern of 8192.0. -/
theorem div_8192 (a : ℝ) : Ideal.div (a : EReal) (Ideal.ofBits .f32 0x46000000#32) = ((a / 8192 : ℝ) : EReal) := by
  rw [ofBits_8192, div_coe_coe a 8192 (by norm_num)]

/-- A quotient by the pattern of 2.0. -/
theorem div_two (a : ℝ) : Ideal.div (a : EReal) (Ideal.ofBits .f32 0x40000000#32) = ((a / 2 : ℝ) : EReal) := by
  rw [ofBits_two, div_coe_coe a 2 (by norm_num)]

end Cert.Loss

end
-- ==== Proof.RefLoss.lean ====
/-
  The reference's result is the loss: its last stage, as a function of a real matrix and the integer input.

  The reference computes a log-softmax along the rows and one along the columns, each as (x - M) - log (sum exp (x - M))
  with M the maximum along the axis taken from minus infinity. Over real entries that maximum is a real: it is below
  plus infinity because every entry is, and above minus infinity because the axis is not empty. That is all that is
  used of it, since an entry of a log-softmax does not depend on the real shift: it is the entry minus the log-sum-exp
  of its row (of its column). Both tables are gathered at the pairs (row i, mapped column of i); the gathered entries
  are summed, the first sum divided by 8192 and negated, the second negated and divided by 8192, and the two added and
  halved. Over the reals that is the loss.
-/
import proofs.«406579_j16149077033577_3_alg».proof.Proof.RefRead
import proofs.«406579_j16149077033577_3_alg».proof.Proof.MappedIndex
import proofs.«406579_j16149077033577_3_alg».proof.Proof.LossSpec
import Idealize.ShloMosaic.PureOps.Reduce
import Mathlib.Data.Finset.Fold

noncomputable section

open scoped BigOperators

namespace Cert.ReferenceIdeal.RefValue

open Cert.ReferenceIdeal Cert.ReferenceIdeal.Gen Idealize.ShloMosaic Idealize.ShloMosaic.ValueIdx

/-- A maximum, taken from minus infinity, of finitely many reals over a nonempty index set is a real. -/
theorem fold_max_real {ι : Type*} [Fintype ι] [Nonempty ι] (g : ι → EReal) (hg : ∀ k, ∃ r : ℝ, g k = (r : EReal)) :
    ∃ M : ℝ, (Finset.univ : Finset ι).fold max (⊥ : EReal) g = (M : EReal) := by
  have htop : (Finset.univ : Finset ι).fold max (⊥ : EReal) g ≠ ⊤ := by
    refine ne_of_lt ((Finset.fold_max_lt _).mpr ⟨bot_lt_top, fun k _ => ?_⟩)
    obtain ⟨r, hr⟩ := hg k
    rw [hr]; exact EReal.coe_lt_top r
  have hbot : (Finset.univ : Finset ι).fold max (⊥ : EReal) g ≠ ⊥ := by
    refine ne_of_gt ((Finset.lt_fold_max _).mpr (Or.inr ?_))
    obtain ⟨k⟩ := (inferInstance : Nonempty ι)
    obtain ⟨r, hr⟩ := hg k
    exact ⟨k, Finset.mem_univ k, by rw [hr]; exact EReal.bot_lt_coe r⟩
  exact ⟨_, (EReal.coe_toReal htop hbot).symm⟩

/-- Every entry of the float input is a real. -/
theorem x_real (x : FVec Ideal S8192x8192 .f32) (xr : Fin 8192 → Fin 8192 → ℝ)
    (hx : ∀ i k, x (ix2 i k) = ((xr i k : ℝ) : EReal)) (j : S8192x8192.Idx) : ∃ r : ℝ, x j = (r : EReal) :=
  ⟨xr (j 0) (j 1), (congrArg x (eq_ix2 j)).trans (hx _ _)⟩

/-- The shift of a row, the maximum of the row taken from minus infinity, is a real. -/
theorem row_shift (x : FVec Ideal S8192x8192 .f32) (xr : Fin 8192 → Fin 8192 → ℝ)
    (hx : ∀ i k, x (ix2 i k) = ((xr i k : ℝ) : EReal)) (j : S8192.Idx) :
    ∃ M : ℝ, ReadP.val_main_call0_v2 (F := Ideal) x j = ((M : ℝ) : EReal) := by
  have h : S8192x8192.Reduces [1] S8192 := by decide
  haveI : Nonempty (Fin (S8192x8192.size 1)) := ⟨⟨0, by decide⟩⟩
  obtain ⟨M, hM⟩ := fold_max_real (x ∘ h.lift j) (fun k => x_real x xr hx _)
  refine ⟨M, ?_⟩
  rw [ReadP.val_main_call0_v2_apply, ReadP.val_main_call0_v1_apply, ReadP.val_main_call0_cst_0_apply]
  unfold ReadP.val_main_call0_v0
  rw [Host.reduce_eq_fold_single FloatOps.maximumf x _ reducesTo_S8192x8192_S8192_d1 h h_S_]
  show max (Ideal.ofBits .f32 0xFF800000#32)
    (Finset.fold max (Ideal.ofBits .f32 0xFF800000#32) (x ∘ h.lift j) Finset.univ) = _
  rw [Cert.Loss.ofBits_neg_inf, hM]
  exact max_eq_right bot_le

/-- The shift of a column, the maximum of the column taken from minus infinity, is a real. -/
theorem col_shift (x : FVec Ideal S8192x8192 .f32) (xr : Fin 8192 → Fin 8192 → ℝ)
    (hx : ∀ i k, x (ix2 i k) = ((xr i k : ℝ) : EReal)) (j : S8192.Idx) :
    ∃ M : ℝ, ReadP.val_main_call1_v2 (F := Ideal) x j = ((M : ℝ) : EReal) := by
  have h : S8192x8192.Reduces [0] S8192 := by decide
  haveI : Nonempty (Fin (S8192x8192.size 0)) := ⟨⟨0, by decide⟩⟩
  obtain ⟨M, hM⟩ := fold_max_real (x ∘ h.lift j) (fun k => x_real x xr hx _)
  refine ⟨M, ?_⟩
  rw [ReadP.val_main_call1_v2_apply, ReadP.val_main_call1_v1_apply, ReadP.val_main_call1_cst_0_apply]
  unfold ReadP.val_main_call1_v0
  rw [Host.reduce_eq_fold_single FloatOps.maximumf x _ reducesTo_S8192x8192_S8192_d0 h h_S_]
  show max (Ideal.ofBits .f32 0xFF800000#32)
    (Finset.fold max (Ideal.ofBits .f32 0xFF800000#32) (x ∘ h.lift j) Finset.univ) = _
  rw [Cert.Loss.ofBits_neg_inf, hM]
  exact max_eq_right bot_le

/-- An entry of a row with the row's shift M taken off. -/
theorem row_centered (x : FVec Ideal S8192x8192 .f32) (xr : Fin 8192 → Fin 8192 → ℝ)
    (hx : ∀ i k, x (ix2 i k) = ((xr i k : ℝ) : EReal)) (i k : Fin 8192) (M : ℝ)
    (hM : ReadP.val_main_call0_v2 (F := Ideal) x (ix1 i) = ((M : ℝ) : EReal)) :
    ReadP.val_main_call0_v5 (F := Ideal) x (ix2 i k) = ((xr i k - M : ℝ) : EReal) := by
  rw [ReadP.val_main_call0_v5_apply, ReadP.val_main_call0_v4_apply, ReadP.val_main_call0_v3_apply]
  have e : ReadP.idx_main_call0_v3 (ReadP.idx_main_call0_v4 (ix2 i k)) = ix1 i := by
    funext a; match a with | ⟨0, _⟩ => rfl
  rw [e, hM, hx, Ideal.subf_def, ← EReal.coe_sub]

/-- The sum of the exponentials of a row's shifted entries. -/
theorem row_sum (x : FVec Ideal S8192x8192 .f32) (xr : Fin 8192 → Fin 8192 → ℝ)
    (hx : ∀ i k, x (ix2 i k) = ((xr i k : ℝ) : EReal)) (i : Fin 8192) (M : ℝ)
    (hM : ReadP.val_main_call0_v2 (F := Ideal) x (ix1 i) = ((M : ℝ) : EReal)) :
    ReadP.val_main_call0_v7 (F := Ideal) x (ix1 i) = ∑ k : Fin 8192, Ideal.exp (((xr i k - M : ℝ) : ℝ) : EReal) := by
  rw [ReadP.val_main_call0_v7_apply, ReadP.val_main_call0_cst_1_apply]
  show Ideal.ofBits .f32 0x00000000#32 + _ = _
  rw [Ideal.ofBits_zero_f32, zero_add]
  refine Finset.sum_congr rfl fun k _ => ?_
  have e : ReadP.idx_main_call0_v7 (ix1 i) k = ix2 i k := by
    funext a; match a with | ⟨0, _⟩ => rfl | ⟨1, _⟩ => rfl
  rw [ReadP.val_main_call0_v6_apply, e, row_centered x xr hx i k M hM]
  rfl

/-- AN ENTRY OF THE ROW LOG-SOFTMAX is the entry minus the row's log-sum-exp, whatever the shift was. -/
theorem lsm_rows_entry (x : FVec Ideal S8192x8192 .f32) (xr : Fin 8192 → Fin 8192 → ℝ)
    (hx : ∀ i k, x (ix2 i k) = ((xr i k : ℝ) : EReal)) (i k : Fin 8192) :
    ReadP.val_main_v1 (F := Ideal) x (ix2 i k)
      = ((xr i k - Real.log (∑ k', Real.exp (xr i k')) : ℝ) : EReal) := by
  obtain ⟨M, hM⟩ := row_shift x xr hx (ix1 i)
  have e : ReadP.idx_main_call0_v8 (ReadP.idx_main_call0_v10 (ix2 i k)) = ix1 i := by
    funext a; match a with | ⟨0, _⟩ => rfl
  rw [ReadP.val_main_v1_apply, row_centered x xr hx i k M hM, ReadP.val_main_call0_v10_apply,
    ReadP.val_main_call0_v9_apply, ReadP.val_main_call0_v8_apply, e, row_sum x xr hx i M hM,
    Ideal.hostUnary_log_def, Cert.Loss.log_sum_exp_coe (fun k' => xr i k' - M), Ideal.subf_def, ← EReal.coe_sub,
    Cert.Loss.log_softmax_entry]

/-- An entry of a column with the column's shift M taken off. -/
theorem col_centered (x : FVec Ideal S8192x8192 .f32) (xr : Fin 8192 → Fin 8192 → ℝ)
    (hx : ∀ i k, x (ix2 i k) = ((xr i k : ℝ) : EReal)) (i k : Fin 8192) (M : ℝ)
    (hM : ReadP.val_main_call1_v2 (F := Ideal) x (ix1 k) = ((M : ℝ) : EReal)) :
    ReadP.val_main_call1_v5 (F := Ideal) x (ix2 i k) = ((xr i k - M : ℝ) : EReal) := by
  rw [ReadP.val_main_call1_v5_apply, ReadP.val_main_call1_v4_apply, ReadP.val_main_call1_v3_apply]
  have e : ReadP.idx_main_call1_v3 (ReadP.idx_main_call1_v4 (ix2 i k)) = ix1 k := by
    funext a; match a with | ⟨0, _⟩ => rfl
  rw [e, hM, hx, Ideal.subf_def, ← EReal.coe_sub]

/-- The sum of the exponentials of a column's shifted entries. -/
theorem col_sum (x : FVec Ideal S8192x8192 .f32) (xr : Fin 8192 → Fin 8192 → ℝ)
    (hx : ∀ i k, x (ix2 i k) = ((xr i k : ℝ) : EReal)) (k : Fin 8192) (M : ℝ)
    (hM : ReadP.val_main_call1_v2 (F := Ideal) x (ix1 k) = ((M : ℝ) : EReal)) :
    ReadP.val_main_call1_v7 (F := Ideal) x (ix1 k) = ∑ r : Fin 8192, Ideal.exp (((xr r k - M : ℝ) : ℝ) : EReal) := by
  rw [ReadP.val_main_call1_v7_apply, ReadP.val_main_call1_cst_1_apply]
  show Ideal.ofBits .f32 0x00000000#32 + _ = _
  rw [Ideal.ofBits_zero_f32, zero_add]
  refine Finset.sum_congr rfl fun r _ => ?_
  have e : ReadP.idx_main_call1_v7 (ix1 k) r = ix2 r k := by
    funext a; match a with | ⟨0, _⟩ => rfl | ⟨1, _⟩ => rfl
  rw [ReadP.val_main_call1_v6_apply, e, col_centered x xr hx r k M hM]
  rfl

/-- AN ENTRY OF THE COLUMN LOG-SOFTMAX is the entry minus the column's log-sum-exp, whatever the shift was. -/
theorem lsm_cols_entry (x : FVec Ideal S8192x8192 .f32) (xr : Fin 8192 → Fin 8192 → ℝ)
    (hx : ∀ i k, x (ix2 i k) = ((xr i k : ℝ) : EReal)) (i k : Fin 8192) :
    ReadP.val_main_v19 (F := Ideal) x (ix2 i k)
      = ((xr i k - Real.log (∑ r, Real.exp (xr r k)) : ℝ) : EReal) := by
  obtain ⟨M, hM⟩ := col_shift x xr hx (ix1 k)
  have e : ReadP.idx_main_call1_v8 (ReadP.idx_main_call1_v10 (ix2 i k)) = ix1 k := by
    funext a; match a with | ⟨0, _⟩ => rfl
  rw [ReadP.val_main_v19_apply, col_centered x xr hx i k M hM, ReadP.val_main_call1_v10_apply,
    ReadP.val_main_call1_v9_apply, ReadP.val_main_call1_v8_apply, e, col_sum x xr hx k M hM,
    Ideal.hostUnary_log_def, Cert.Loss.log_sum_exp_coe (fun r => xr r k - M), Ideal.subf_def, ← EReal.coe_sub,
    Cert.Loss.log_softmax_entry (fun r => xr r k)]

/-- The index pairs of the first gather are the rows' own numbers beside the mapping, each wrapped. -/
theorem idx_pairs_rows (map : IVec S8192 32) :
    ReadP.val_main_v14 (F := Ideal) map
      = Cert.Loss.pairIdx bcast_S_S8192 bcast_S8192_S8192x1_0 concatenates_S8192x1_S8192x1_S8192x2_d1 map := rfl

/-- The index pairs of the second gather are the same pairs. -/
theorem idx_pairs_cols (map : IVec S8192 32) :
    ReadP.val_main_v32 (F := Ideal) map
      = Cert.Loss.pairIdx bcast_S_S8192 bcast_S8192_S8192x1_0 concatenates_S8192x1_S8192x1_S8192x2_d1 map := rfl

/-- The row log-softmax gathered at the pairs: at row i, its entry at the mapped column. -/
theorem gathered_rows (x : FVec Ideal S8192x8192 .f32) (map : IVec S8192 32) (xr : Fin 8192 → Fin 8192 → ℝ)
    (hx : ∀ i k, x (ix2 i k) = ((xr i k : ℝ) : EReal)) (i : Fin 8192) :
    ReadP.val_main_v15 (F := Ideal) x map (ix1 i)
      = ((xr i (Cert.Loss.colOf map i) - Real.log (∑ k, Real.exp (xr i k)) : ℝ) : EReal) := by
  unfold ReadP.val_main_v15
  rw [idx_pairs_rows]
  refine (Cert.Loss.gather_pairs_apply gather_S8192x8192_S8192x2_S8192_n_01_n_n_01_1_11_wf bcast_S_S8192
    bcast_S8192_S8192x1_0 concatenates_S8192x1_S8192x1_S8192x2_d1 (ReadP.val_main_v1 (F := Ideal) x) map i).trans ?_
  exact lsm_rows_entry x xr hx i _

/-- The column log-softmax gathered at the pairs: at row i, its entry at the mapped column. -/
theorem gathered_cols (x : FVec Ideal S8192x8192 .f32) (map : IVec S8192 32) (xr : Fin 8192 → Fin 8192 → ℝ)
    (hx : ∀ i k, x (ix2 i k) = ((xr i k : ℝ) : EReal)) (i : Fin 8192) :
    ReadP.val_main_v33 (F := Ideal) x map (ix1 i)
      = ((xr i (Cert.Loss.colOf map i) - Real.log (∑ r, Real.exp (xr r (Cert.Loss.colOf map i))) : ℝ) : EReal) := by
  unfold ReadP.val_main_v33
  rw [idx_pairs_cols]
  refine (Cert.Loss.gather_pairs_apply gather_S8192x8192_S8192x2_S8192_n_01_n_n_01_1_11_wf bcast_S_S8192
    bcast_S8192_S8192x1_0 concatenates_S8192x1_S8192x1_S8192x2_d1 (ReadP.val_main_v19 (F := Ideal) x) map i).trans ?_
  exact lsm_cols_entry x xr hx i _

/-- The sum of the gathered row log-softmax entries, as a real. -/
theorem sum_rows (x : FVec Ideal S8192x8192 .f32) (map : IVec S8192 32) (xr : Fin 8192 → Fin 8192 → ℝ)
    (hx : ∀ i k, x (ix2 i k) = ((xr i k : ℝ) : EReal)) (j : S_.Idx) :
    ReadP.val_main_v16 (F := Ideal) x map j
      = ((∑ i, (xr i (Cert.Loss.colOf map i) - Real.log (∑ k, Real.exp (xr i k))) : ℝ) : EReal) := by
  rw [ReadP.val_main_v16_apply, ReadP.val_main_cst_apply]
  show Ideal.ofBits .f32 0x00000000#32 + _ = _
  rw [Ideal.ofBits_zero_f32, zero_add, Cert.Loss.sum_idx1, ← Cert.Loss.coe_sum]
  exact Finset.sum_congr rfl fun a _ => gathered_rows x map xr hx a

/-- The sum of the gathered column log-softmax entries, as a real. -/
theorem sum_cols (x : FVec Ideal S8192x8192 .f32) (map : IVec S8192 32) (xr : Fin 8192 → Fin 8192 → ℝ)
    (hx : ∀ i k, x (ix2 i k) = ((xr i k : ℝ) : EReal)) (j : S_.Idx) :
    ReadP.val_main_v34 (F := Ideal) x map j
      = ((∑ i, (xr i (Cert.Loss.colOf map i) - Real.log (∑ r, Real.exp (xr r (Cert.Loss.colOf map i)))) : ℝ) : EReal) := by
  rw [ReadP.val_main_v34_apply, ReadP.val_main_cst_8_apply]
  show Ideal.ofBits .f32 0x00000000#32 + _ = _
  rw [Ideal.ofBits_zero_f32, zero_add, Cert.Loss.sum_idx1, ← Cert.Loss.coe_sum]
  exact Finset.sum_congr rfl fun a _ => gathered_cols x map xr hx a

/-- The reference's result, over a float input whose entries are the reals xr, is the loss at the mapped columns. -/
theorem ref_loss (x : FVec Ideal S8192x8192 .f32) (map : IVec S8192 32) (xr : Fin 8192 → Fin 8192 → ℝ)
    (hx : ∀ i k, x (ix2 i k) = ((xr i k : ℝ) : EReal)) :
    ReadP.val_main_v38 (F := Ideal) x map = fun _ => ((Cert.Loss.lossR xr (Cert.Loss.colOf map) : ℝ) : EReal) := by
  funext j
  rw [ReadP.val_main_v38_apply, ReadP.val_main_v37_apply, ReadP.val_main_v18_apply, ReadP.val_main_v17_apply,
    ReadP.val_main_v36_apply, ReadP.val_main_v35_apply, sum_rows x map xr hx j, sum_cols x map xr hx j,
    ReadP.val_main_cst_3_apply, ReadP.val_main_cst_9_apply, ReadP.val_main_cst_10_apply]
  simp only [Ideal.hostDivf_def, Ideal.hostNegf_def, Ideal.negf_def, Ideal.addf_def, Ideal.ofBits_def]
  rw [Cert.Loss.div_8192, ← EReal.coe_neg, ← EReal.coe_neg, Cert.Loss.div_8192, ← EReal.coe_add, Cert.Loss.div_two]
  refine congrArg (fun r : ℝ => (r : EReal)) ?_
  exact Cert.Loss.loss_two_spellings (fun i => Real.log (∑ k, Real.exp (xr i k)))
    (fun i => Real.log (∑ r, Real.exp (xr r (Cert.Loss.colOf map i)))) (fun i => xr i (Cert.Loss.colOf map i)) _ _ 8192
    (fun _ => rfl) (fun _ => rfl)

end Cert.ReferenceIdeal.RefValue

end
-- ==== Proof.KernelSums.lean ====
/-
  What the kernel's two output arrays hold after the run: the row sums of exp of the input, and per block of 512 rows the
  column sums of exp over the block's rows.
-/
import proofs.«406579_j16149077033577_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Sums

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The float input as launched, as a plain array. -/
abbrev sim (c : Dev nD) : S8192x8192.Idx → EReal := m ((c : Thread nD τ).loc main_arg0)

/-! ## The layout and lane-sum operations read at an index -/

/-- A vector cast to a column (a trailing unit axis added) reads, at (i, u), the operand at i, whatever the unit
    coordinate u. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The sum along the columns of a [512, 8192] block, at row p: the sum over the 8192 columns. -/
theorem sumCols_apply (src : FVec Ideal S512x8192 .f32) (h : S512x8192.Reduces [1] S512) (hφ : FKind.Formats .f32)
    (hacc : (0x00000000#32 : BitVec 32) = 0x00000000#32) (p : Fin 512) :
    multiReduction .add [1] S512 src 0x00000000#32 h hφ hacc (ix1 p) = ∑ k : Fin 8192, src (ix2 p k) := by
  refine (Ideal.multiReduction_add_single src 0x00000000#32 h hφ hacc (ix1 p)).trans ?_
  refine Finset.sum_congr rfl fun k _ => congrArg src ?_
  funext a; apply Fin.ext
  match a with
  | ⟨0, _⟩ => rfl
  | ⟨1, _⟩ => rfl

/-- The sum along the rows of a [512, 8192] block, at column q: the sum over the 512 rows. -/
theorem sumRows_apply (src : FVec Ideal S512x8192 .f32) (h : S512x8192.Reduces [0] S8192) (hφ : FKind.Formats .f32)
    (hacc : (0x00000000#32 : BitVec 32) = 0x00000000#32) (q : Fin 8192) :
    multiReduction .add [0] S8192 src 0x00000000#32 h hφ hacc (ix1 q) = ∑ r : Fin 512, src (ix2 r q) := by
  refine (Ideal.multiReduction_add_single src 0x00000000#32 h hφ hacc (ix1 q)).trans ?_
  refine Finset.sum_congr rfl fun r _ => congrArg src ?_
  funext a; apply Fin.ext
  match a with
  | ⟨0, _⟩ => rfl
  | ⟨1, _⟩ => rfl

/-! ## The two payloads at an index -/

/-- The row-sum payload of a block x0 at (p, 0): the sum over the columns k of exp of x0 at (p, k). -/
theorem rowPay_apply (x0 : FVec Ideal S512x8192 .f32) (p : Fin 512) (u : Fin 1) :
    (k0_pay2 (F := Ideal) x0) (ix2 p u) = ∑ k : Fin 8192, Ideal.exp (x0 (ix2 p k)) := by
  unfold k0_pay2 k0_pay1
  refine (shapeCast_a_a1_apply _ _ p u).trans ?_
  exact sumCols_apply _ _ _ _ p

/-- The column-sum payload of a block x0 at (0, 0, q): the sum over the rows r of exp of x0 at (r, q). -/
theorem colPay_apply (x0 : FVec Ideal S512x8192 .f32) (u v : Fin 1) (q : Fin 8192) :
    (k0_pay3 (F := Ideal) x0) (ix3 u v q) = ∑ r : Fin 512, Ideal.exp (x0 (ix2 r q)) := by
  unfold k0_pay3 k0_pay1
  refine (shapeCast_ab_1ab_apply _ _ u v q).trans ?_
  refine (shapeCast_a_1a_apply _ _ v q).trans ?_
  exact sumRows_apply _ _ _ _ q

/-! ## The blocks' places in the arrays -/

theorem hz2 : (![0, 0] : Fin 2 → Nat) = fun _ => 0 := funext fun a => by fin_cases a <;> rfl
theorem hz3 : (![0, 0, 0] : Fin 3 → Nat) = fun _ => 0 := funext fun a => by fin_cases a <;> rfl

/-- The three windows' block indices at a grid point t, decided over the grid: each is (t, 0, …). -/
theorem blockIdx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- The input's block at point t, at (p, k), is the input at row 512 t + p and column k. -/
theorem inBlock_apply (c : Dev nD) (t : Fin cfg0.N) (p : Fin 512) (k : Fin 8192) (i : S8192x8192.Idx)
    (h0 : (i 0).val = 512 * t.val + p.val) (h1 : (i 1).val = k.val) :
    (iblk m c 0 t : FVec Ideal S512x8192 .f32) (ix2 p k) = V m c main_arg0 i := by
  obtain ⟨e0, e1, -⟩ := blockIdx t
  show V m c main_arg0 (((cfg0.win 0).blk t).view.emb (ix2 p k)) = V m c main_arg0 i
  refine congrArg (V m c main_arg0) ?_
  funext a; apply Fin.ext
  match a with
  | ⟨0, _⟩ => show win0_0.index t (0 : Fin 2) * 512 + 1 * p.val = (i 0).val; omega
  | ⟨1, _⟩ => show win0_0.index t (1 : Fin 2) * 8192 + 1 * k.val = (i 1).val; omega

/-! ## The row sums -/

/-- The row sums of exp of an array a, as a column. -/
abbrev rowSumsOf (a : S8192x8192.Idx → EReal) : S8192x1.Idx → EReal :=
  fun j => ∑ k : Fin 8192, Ideal.exp (a (ix2 (⟨(j 0).val, (j 0).isLt⟩ : Fin 8192) k))

/-- What point t writes back to the row-sum array is block t of the row sums of the input. -/
theorem rowFlushed_eq (c : Dev nD) (t : Fin cfg0.N) :
    (dats (F := Ideal) m 0 c).flushed 1 t = ((cfg0.win 1).blk t).view.read (Elt Ideal) (rowSumsOf (V m c main_arg0)) := by
  show (cfg0.win 1).cut (grid0.coords t) ((dats (F := Ideal) m 0 c).after 1 t) = _
  rw [after0_1]
  unfold out0_1
  rw [View.canon_unit_zero hz2]
  simp only [View.ld_unit_zero (S := S512x8192) hz2]
  obtain ⟨-, -, e2, e3, -⟩ := blockIdx t
  funext y
  obtain ⟨p, u, rfl⟩ : ∃ (p : Fin 512) (u : Fin 1), y = ix2 p u := ⟨y 0, y 1, eq_ix2 y⟩
  show (k0_pay2 (F := Ideal) (iblk m c 0 t)) (ix2 p u) = rowSumsOf (V m c main_arg0) (((cfg0.win 1).blk t).view.emb (ix2 p u))
  refine (rowPay_apply _ p u).trans ?_
  refine Finset.sum_congr rfl fun k _ => congrArg Ideal.exp ?_
  refine inBlock_apply m c t p k _ ?_ rfl
  show win0_1.index t (0 : Fin 2) * 512 + 1 * p.val = 512 * t.val + p.val
  omega

/-- An index of the row-sum array is in point t's block iff each coordinate is in the block's range on its axis. -/
theorem rowMem_blk (t : Fin cfg0.N) (i : S8192x1.Idx) :
    i ∈ ((cfg0.win 1).blk t).view.set ↔ ∀ a : Fin 2, win0_1.index t a * S512x1.size a ≤ (i a).val ∧ (i a).val < win0_1.index t a * S512x1.size a + S512x1.size a := by
  show i ∈ ((View.whole main_v0_0).slice (win0_1.rect t)).set ↔ _
  rw [View.set_slice_whole, Rect.mem_set_unit]
  exact Iff.rfl

/-- Row i of the row-sum array is written back by point i / 512. -/
theorem rowCover (i : S8192x1.Idx) : ∃ t : Fin cfg0.N, (cfg0.win 1).flush t = true ∧ i ∈ ((cfg0.win 1).blk t).view.set := by
  have hi0 : (i 0).val < 8192 := (i 0).isLt
  have hi1 : (i 1).val < 1 := (i 1).isLt
  have hN : cfg0.N = 16 := N_0
  obtain ⟨t, ht⟩ : ∃ t : Fin cfg0.N, t.val = (i 0).val / 512 := ⟨⟨(i 0).val / 512, by omega⟩, rfl⟩
  obtain ⟨-, -, e2, e3, -⟩ := blockIdx t
  refine ⟨t, flush0_1 t, ?_⟩
  rw [rowMem_blk]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 1 ≤ (i 1).val ∧ (i 1).val < win0_1.index t (1 : Fin 2) * 1 + 1; omega

/-- THE ROW-SUM ARRAY after the run: entry (i, 0) is the sum over the columns k of exp of the input at (i, k). -/
theorem rowSums_final (c : Dev nD) :
    (dats (F := Ideal) m 0 c).arrAt 1 cfg0.N
      = fun j : S8192x1.Idx => ∑ k : Fin 8192, Ideal.exp (sim m c (ix2 (⟨(j 0).val, (j 0).isLt⟩ : Fin 8192) k)) := by
  refine ((dats (F := Ideal) m 0 c).arrAt_eq_of_cover 1 (rowSumsOf (V m c main_arg0)) (fun t _ => rowFlushed_eq m c t) rowCover).trans ?_
  rw [V_main_arg0]

/-! ## The column partial sums -/

/-- Per block of 512 rows, the column sums of exp of an array a over the block's rows. -/
abbrev colPartialsOf (a : S8192x8192.Idx → EReal) : S16x1x8192.Idx → EReal :=
  fun j => ∑ r : Fin 512,
    Ideal.exp (a (ix2 (⟨512 * (j 0).val + r.val, by have h0 : (j 0).val < 16 := (j 0).isLt; have := r.isLt; omega⟩ : Fin 8192)
      (⟨(j 2).val, (j 2).isLt⟩ : Fin 8192)))

/-- What point t writes back to the column-partial array is block t of the column partial sums of the input. -/
theorem colFlushed_eq (c : Dev nD) (t : Fin cfg0.N) :
    (dats (F := Ideal) m 0 c).flushed 2 t = ((cfg0.win 2).blk t).view.read (Elt Ideal) (colPartialsOf (V m c main_arg0)) := by
  show (cfg0.win 2).cut (grid0.coords t) ((dats (F := Ideal) m 0 c).after 2 t) = _
  rw [after0_2]
  unfold out0_2
  rw [View.canon_unit_zero hz3]
  simp only [View.ld_unit_zero (S := S512x8192) hz2]
  obtain ⟨-, -, -, -, e4, e5, e6⟩ := blockIdx t
  funext y
  obtain ⟨u, v, q, rfl⟩ : ∃ (u : Fin 1) (v : Fin 1) (q : Fin 8192), y = ix3 u v q := ⟨y 0, y 1, y 2, eq_ix3 y⟩
  show (k0_pay3 (F := Ideal) (iblk m c 0 t)) (ix3 u v q) = colPartialsOf (V m c main_arg0) (((cfg0.win 2).blk t).view.emb (ix3 u v q))
  refine (colPay_apply _ u v q).trans ?_
  refine Finset.sum_congr rfl fun r _ => congrArg Ideal.exp ?_
  have hu : u.val = 0 := by omega
  refine inBlock_apply m c t r q _ ?_ ?_
  · show 512 * (win0_2.index t (0 : Fin 3) * 1 + 1 * u.val) + r.val = 512 * t.val + r.val
    omega
  · show win0_2.index t (2 : Fin 3) * 8192 + 1 * q.val = q.val
    omega

/-- An index of the column-partial array is in point t's block iff each coordinate is in the block's range on its axis. -/
theorem colMem_blk (t : Fin cfg0.N) (i : S16x1x8192.Idx) :
    i ∈ ((cfg0.win 2).blk t).view.set ↔ ∀ a : Fin 3, win0_2.index t a * S1x1x8192.size a ≤ (i a).val ∧ (i a).val < win0_2.index t a * S1x1x8192.size a + S1x1x8192.size a := by
  show i ∈ ((View.whole main_v0_1).slice (win0_2.rect t)).set ↔ _
  rw [View.set_slice_whole, Rect.mem_set_unit]
  exact Iff.rfl

/-- Entry (b, 0, j) of the column-partial array is written back by point b. -/
theorem colCover (i : S16x1x8192.Idx) : ∃ t : Fin cfg0.N, (cfg0.win 2).flush t = true ∧ i ∈ ((cfg0.win 2).blk t).view.set := by
  have hi0 : (i 0).val < 16 := (i 0).isLt
  have hi1 : (i 1).val < 1 := (i 1).isLt
  have hi2 : (i 2).val < 8192 := (i 2).isLt
  have hN : cfg0.N = 16 := N_0
  obtain ⟨t, ht⟩ : ∃ t : Fin cfg0.N, t.val = (i 0).val := ⟨⟨(i 0).val, by omega⟩, rfl⟩
  obtain ⟨-, -, -, -, e4, e5, e6⟩ := blockIdx t
  refine ⟨t, flush0_2 t, ?_⟩
  rw [colMem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 8192 ≤ (i 2).val ∧ (i 2).val < win0_2.index t (2 : Fin 3) * 8192 + 8192; omega

/-- THE COLUMN-PARTIAL ARRAY after the run: entry (b, 0, j) is the sum over the 512 rows r of block b of exp of the input
    at (512 b + r, j). -/
theorem colPartials_final (c : Dev nD) :
    (dats (F := Ideal) m 0 c).arrAt 2 cfg0.N
      = fun j : S16x1x8192.Idx => ∑ r : Fin 512,
          Ideal.exp (sim m c (ix2 (⟨512 * (j 0).val + r.val, by have h0 : (j 0).val < 16 := (j 0).isLt; have := r.isLt; omega⟩ : Fin 8192)
            (⟨(j 2).val, (j 2).isLt⟩ : Fin 8192))) := by
  refine ((dats (F := Ideal) m 0 c).arrAt_eq_of_cover 2 (colPartialsOf (V m c main_arg0)) (fun t _ => colFlushed_eq m c t) colCover).trans ?_
  rw [V_main_arg0]

end Cert.KernelIdeal.Sums

end
-- ==== Proof.KernelLoss.lean ====
/-
  The kernel's result is the loss: the host operations after the region, applied to the two arrays the region leaves.

  After the region the host reshapes the row sums [8192, 1] to a vector and the column partial sums [16, 1, 8192] to
  [16, 8192], adds the 16 partial sums of each column, takes the logarithm of both, reads the input and the column
  logarithms at the mapped column of each row, subtracts, sums over the rows, divides by 8192, adds and halves. Over real
  entries: the 16 partial sums of a column, each over 512 rows, are the sum over all 8192 rows; both logarithms are of
  positive reals; every summand is a real, and the result is the loss as the specification spells it.
-/
import proofs.«406579_j16149077033577_3_alg».proof.Proof.KernelSums
import proofs.«406579_j16149077033577_3_alg».proof.Proof.MappedIndex
import proofs.«406579_j16149077033577_3_alg».proof.Proof.LossSpec
import Idealize.ShloMosaic.Lib.StableHlo.Run
import Idealize.ShloMosaic.Lib.Pipeline.Value
import Idealize.ShloMosaic.PureOps.Ideal.Laws

set_option maxRecDepth 16384

noncomputable section

open scoped BigOperators

namespace Cert.KernelIdeal.Tail

open Cert.KernelIdeal Cert.KernelIdeal.Gen Cert.KernelIdeal.Sums Idealize.ShloMosaic Idealize.ShloMosaic.TcCoe Idealize.SL.Sem
open Idealize.ShloMosaic.ValueIdx Idealize.ShloMosaic.StableHlo

/-! ## Two reshapes and a regrouped sum -/

/-- A column [a, 1] cast to a vector reads, at i, the column at (i, 0). -/
theorem column_as_vector {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An array [a, 1, b] cast to [a, b] reads, at (p, q), the array at (p, 0, q). -/
theorem drop_middle_unit {α : Type} {a b : ℕ} (x : (⟨3, ![a, 1, b]⟩ : Shape).Idx → α)
    (h : (⟨3, ![a, 1, b]⟩ : Shape).ShapeCasts ⟨2, ![a, b]⟩) (p : Fin a) (q : Fin b) :
    shapeCast ⟨2, ![a, b]⟩ x h (ix2 p q) = x (ix3 p (0 : Fin 1) q) :=
  shapeCast_apply x h _ _ (by
    rw [Shape.rowMajor_val_three, Shape.rowMajor_val_two]
    show (p.val * 1 + 0) * b + q.val = p.val * b + q.val
    rw [Nat.mul_one, Nat.add_zero])

/-- A sum over 8192 rows is the sum over 16 blocks of the sums over the 512 rows of each block. -/
theorem sum_blocks {M : Type*} [AddCommMonoid M] (f : Fin 8192 → M) :
    ∑ i : Fin 8192, f i = ∑ b : Fin 16, ∑ r : Fin 512, f ⟨512 * b.val + r.val, by omega⟩ :=
  calc ∑ i : Fin 8192, f i
      = ∑ p : Fin 16 × Fin 512, f (finProdFinEquiv p) := (Equiv.sum_comp (finProdFinEquiv (m := 16) (n := 512)) f).symm
    _ = ∑ b : Fin 16, ∑ r : Fin 512, f (finProdFinEquiv (b, r)) := Fintype.sum_prod_type _
    _ = ∑ b : Fin 16, ∑ r : Fin 512, f ⟨512 * b.val + r.val, by omega⟩ :=
        Finset.sum_congr rfl fun b _ => Finset.sum_congr rfl fun r _ => congrArg f (Fin.ext (by
          show r.val + 512 * b.val = 512 * b.val + r.val
          omega))

/-! ## The host operations after the region, as one function -/

/-- The host operations after the region, of the region's two arrays rs (row sums) and cp (column partial sums), the float
    input x and the integer input map. -/
def tailFn (rs : FVec Ideal S8192x1 .f32) (cp : FVec Ideal S16x1x8192 .f32) (x : FVec Ideal S8192x8192 .f32)
    (map : IVec S8192 32) : FVec Ideal S_ .f32 :=
  Host.divf
    (addf
      (Host.divf
        (Host.reduceAdd
          (subf
            (Host.log fun i => shapeCast S8192 rs shapeCasts_S8192x1_S8192 i)
            (Host.gather gather_S8192x8192_S8192x2_S8192_n_01_n_n_01_1_11 x
              (concatenate S8192x2 1
                [⟨S8192x1, broadcastInDim S8192x1 ![0] bcast_S8192_S8192x1_0
                    (select (cmpi CmpIPredicate.slt (iotaInDim S8192 32 0) (broadcastInDim S8192 ![] bcast_S_S8192 (constantI S_ 32 0#32)))
                      (addi (iotaInDim S8192 32 0) (broadcastInDim S8192 ![] bcast_S_S8192 (constantI S_ 32 8192#32)))
                      (iotaInDim S8192 32 0))⟩,
                  ⟨S8192x1, broadcastInDim S8192x1 ![0] bcast_S8192_S8192x1_0
                    (select (cmpi CmpIPredicate.slt map (broadcastInDim S8192 ![] bcast_S_S8192 (constantI S_ 32 0#32)))
                      (addi map (broadcastInDim S8192 ![] bcast_S_S8192 (constantI S_ 32 8192#32))) map)⟩]
                concatenates_S8192x1_S8192x1_S8192x2_d1)))
          (constant S_ FTy.f32 0x00000000#32) reducesTo_S8192_S_d0 h_S_)
        (constant S_ FTy.f32 0x46000000#32))
      (Host.divf
        (Host.reduceAdd
          (subf
            (Host.gather gather_S8192_S8192x1_S8192_n_0_n_n_0_1_1
              (Host.log
                (Host.reduceAdd (fun i => shapeCast S16x8192 cp shapeCasts_S16x1x8192_S16x8192 i)
                  (constant S_ FTy.f32 0x00000000#32) reducesTo_S16x8192_S8192_d0 h_S_))
              (broadcastInDim S8192x1 ![0] bcast_S8192_S8192x1_0
                (select (cmpi CmpIPredicate.slt map (broadcastInDim S8192 ![] bcast_S_S8192 (constantI S_ 32 0#32)))
                  (addi map (broadcastInDim S8192 ![] bcast_S_S8192 (constantI S_ 32 8192#32))) map)))
            (Host.gather gather_S8192x8192_S8192x2_S8192_n_01_n_n_01_1_11 x
              (concatenate S8192x2 1
                [⟨S8192x1, broadcastInDim S8192x1 ![0] bcast_S8192_S8192x1_0
                    (select (cmpi CmpIPredicate.slt (iotaInDim S8192 32 0) (broadcastInDim S8192 ![] bcast_S_S8192 (constantI S_ 32 0#32)))
                      (addi (iotaInDim S8192 32 0) (broadcastInDim S8192 ![] bcast_S_S8192 (constantI S_ 32 8192#32)))
                      (iotaInDim S8192 32 0))⟩,
                  ⟨S8192x1, broadcastInDim S8192x1 ![0] bcast_S8192_S8192x1_0
                    (select (cmpi CmpIPredicate.slt map (broadcastInDim S8192 ![] bcast_S_S8192 (constantI S_ 32 0#32)))
                      (addi map (broadcastInDim S8192 ![] bcast_S_S8192 (constantI S_ 32 8192#32))) map)⟩]
                concatenates_S8192x1_S8192x1_S8192x2_d1)))
          (constant S_ FTy.f32 0x00000000#32) reducesTo_S8192_S_d0 h_S_)
        (constant S_ FTy.f32 0x46000000#32)))
    (constant S_ FTy.f32 0x40000000#32)

variable (m : (ℓ : Loc nD τ sig) → Buf (Elt Ideal) ℓ)

set_option maxHeartbeats 4000000 in
/-- The kernel's result buffer after the run is that function of the region's two arrays and the inputs as launched. -/
theorem tail_eq (c : Dev nD) :
    Pipeline.afterTail₀ cfgs (dats (F := Ideal) m) 0 (V0 m) [hostOps1] c main_v35
      = tailFn ((dats (F := Ideal) m 0 c).arrAt 1 cfg0.N) ((dats (F := Ideal) m 0 c).arrAt 2 cfg0.N) (sim m c)
          (m ((c : Thread nD τ).loc main_arg1)) := by
  have h00 : Pipeline.withArrays (cfgs 0).spec c (V0 m c) (fun w => (dats (F := Ideal) m 0 c).arrAt w (cfgs 0).N)
      (Proc.devRef .tc main_v0_0) = (dats (F := Ideal) m 0 c).arrAt 1 cfg0.N :=
    Pipeline.withArrays_arr spec0 launch0.win.arr_inj c _ _ 1
  have h01 : Pipeline.withArrays (cfgs 0).spec c (V0 m c) (fun w => (dats (F := Ideal) m 0 c).arrAt w (cfgs 0).N)
      (Proc.devRef .tc main_v0_1) = (dats (F := Ideal) m 0 c).arrAt 2 cfg0.N :=
    Pipeline.withArrays_arr spec0 launch0.win.arr_inj c _ _ 2
  have ha0 : Pipeline.withArrays (cfgs 0).spec c (V0 m c) (fun w => (dats (F := Ideal) m 0 c).arrAt w (cfgs 0).N)
      (Proc.devRef .tc main_arg0) = sim m c :=
    (Pipeline.withArrays_arr spec0 launch0.win.arr_inj c _ _ 0).trans
      (((dats (F := Ideal) m 0 c).arrAt_in 0 rfl _).trans ((A_eq m c 0).trans (V_main_arg0 m c)))
  have ha1 : Pipeline.withArrays (cfgs 0).spec c (V0 m c) (fun w => (dats (F := Ideal) m 0 c).arrAt w (cfgs 0).N)
      (Proc.devRef .tc main_arg1) = m ((c : Thread nD τ).loc main_arg1) :=
    (Pipeline.withArrays_of_ne _ c (V0 m c) _ main_arg1 (by exact (by decide : ∀ w, Pipeline.arrRef spec0 w ≠ main_arg1))).trans
      (V_main_arg1 m c)
  unfold Pipeline.afterTail₀
  simp only [hostOps1, List.flatten_cons, List.flatten_nil, List.append_nil]
  after_results_simp
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rw [h00, h01, ha0, ha1]
  rfl

/-! ## The value of that function over real entries -/

section Value

variable (rs : FVec Ideal S8192x1 .f32) (cp : FVec Ideal S16x1x8192 .f32) (x : FVec Ideal S8192x8192 .f32)
  (map : IVec S8192 32) (xr : Fin 8192 → Fin 8192 → ℝ)

/-- The logarithm of the row sums, at row i: the row's log-sum-exp. -/
theorem rowLse_apply (hx : ∀ i k, x (ix2 i k) = ((xr i k : ℝ) : EReal))
    (hrs : ∀ i : Fin 8192, rs (ix2 i (0 : Fin 1)) = ∑ k : Fin 8192, Ideal.exp (x (ix2 i k))) (i : Fin 8192) :
    (Host.log (fun j => shapeCast S8192 rs shapeCasts_S8192x1_S8192 j) : FVec Ideal S8192 .f32) (ix1 i)
      = ((Real.log (∑ k, Real.exp (xr i k)) : ℝ) : EReal) := by
  show FloatOps.hostUnary .log (shapeCast S8192 rs shapeCasts_S8192x1_S8192 (ix1 i)) = _
  rw [column_as_vector rs _ i, hrs i, Ideal.hostUnary_log_def]
  simp only [hx]
  exact Cert.Loss.log_sum_exp_coe (fun k => xr i k)

/-- The 16 partial sums of column j added: the sum of exp over all 8192 rows of the column. -/
theorem colSum_apply (hx : ∀ i k, x (ix2 i k) = ((xr i k : ℝ) : EReal))
    (hcp : ∀ (b : Fin 16) (j : Fin 8192), cp (ix3 b (0 : Fin 1) j)
      = ∑ r : Fin 512, Ideal.exp (x (ix2 (⟨512 * b.val + r.val, by omega⟩ : Fin 8192) j))) (j : Fin 8192) :
    (Host.reduceAdd (fun i => shapeCast S16x8192 cp shapeCasts_S16x1x8192_S16x8192 i)
        (constant S_ FTy.f32 0x00000000#32) reducesTo_S16x8192_S8192_d0 h_S_ : FVec Ideal S8192 .f32) (ix1 j)
      = ((∑ i, Real.exp (xr i j) : ℝ) : EReal) := by
  simp only [Host.reduceAdd, Ideal.hostReduceAdd_def]
  rw [Ideal.hostReduceAdd_single reducesTo_S16x8192_S8192_d0 (by decide)]
  show Ideal.ofBits .f32 0x00000000#32 + _ = _
  rw [Ideal.ofBits_zero_f32, zero_add, sum_blocks (fun i => Real.exp (xr i j)), ← Cert.Loss.coe_sum]
  refine Finset.sum_congr rfl fun (b : Fin 16) _ => ?_
  refine (congrArg (shapeCast S16x8192 cp shapeCasts_S16x1x8192_S16x8192)
    (show _ = ix2 b j from funext fun a => Fin.ext (by match a with | ⟨0, _⟩ => rfl | ⟨1, _⟩ => rfl))).trans ?_
  rw [drop_middle_unit cp _ b j, hcp b j, ← Cert.Loss.coe_sum]
  exact Finset.sum_congr rfl fun r _ => by rw [hx]; rfl

/-- The logarithm of the column sums, at column j: the column's log-sum-exp. -/
theorem colLse_apply (hx : ∀ i k, x (ix2 i k) = ((xr i k : ℝ) : EReal))
    (hcp : ∀ (b : Fin 16) (j : Fin 8192), cp (ix3 b (0 : Fin 1) j)
      = ∑ r : Fin 512, Ideal.exp (x (ix2 (⟨512 * b.val + r.val, by omega⟩ : Fin 8192) j))) (j : Fin 8192) :
    (Host.log (Host.reduceAdd (fun i => shapeCast S16x8192 cp shapeCasts_S16x1x8192_S16x8192 i)
        (constant S_ FTy.f32 0x00000000#32) reducesTo_S16x8192_S8192_d0 h_S_) : FVec Ideal S8192 .f32) (ix1 j)
      = ((Real.log (∑ i, Real.exp (xr i j)) : ℝ) : EReal) := by
  show FloatOps.hostUnary .log _ = _
  rw [colSum_apply cp x xr hx hcp j, Ideal.hostUnary_log_def]
  exact Cert.Loss.log_coe_of_pos (Cert.Loss.sum_exp_pos fun i => xr i j)

/-- The index pairs the host gathers the input at are the rows' own numbers beside the mapping, each wrapped. -/
theorem idx_pairs :
    concatenate S8192x2 1
      [⟨S8192x1, broadcastInDim S8192x1 ![0] bcast_S8192_S8192x1_0
          (select (cmpi CmpIPredicate.slt (iotaInDim S8192 32 0) (broadcastInDim S8192 ![] bcast_S_S8192 (constantI S_ 32 0#32)))
            (addi (iotaInDim S8192 32 0) (broadcastInDim S8192 ![] bcast_S_S8192 (constantI S_ 32 8192#32)))
            (iotaInDim S8192 32 0))⟩,
        ⟨S8192x1, broadcastInDim S8192x1 ![0] bcast_S8192_S8192x1_0
          (select (cmpi CmpIPredicate.slt map (broadcastInDim S8192 ![] bcast_S_S8192 (constantI S_ 32 0#32)))
            (addi map (broadcastInDim S8192 ![] bcast_S_S8192 (constantI S_ 32 8192#32))) map)⟩]
      concatenates_S8192x1_S8192x1_S8192x2_d1
    = Cert.Loss.pairIdx bcast_S_S8192 bcast_S8192_S8192x1_0 concatenates_S8192x1_S8192x1_S8192x2_d1 map := rfl

/-- The wrapped mapping the host gathers the column logarithms at. -/
theorem wrapped_map :
    select (cmpi CmpIPredicate.slt map (broadcastInDim S8192 ![] bcast_S_S8192 (constantI S_ 32 0#32)))
      (addi map (broadcastInDim S8192 ![] bcast_S_S8192 (constantI S_ 32 8192#32))) map
    = Cert.Loss.wrapArr bcast_S_S8192 map := rfl

/-- THE VALUE: over real entries, with rs the row sums and cp the column partial sums of exp, the host operations after the
    region give the loss at the mapped columns. -/
theorem tail_value (hx : ∀ i k, x (ix2 i k) = ((xr i k : ℝ) : EReal))
    (hrs : ∀ i : Fin 8192, rs (ix2 i (0 : Fin 1)) = ∑ k : Fin 8192, Ideal.exp (x (ix2 i k)))
    (hcp : ∀ (b : Fin 16) (j : Fin 8192), cp (ix3 b (0 : Fin 1) j)
      = ∑ r : Fin 512, Ideal.exp (x (ix2 (⟨512 * b.val + r.val, by omega⟩ : Fin 8192) j))) :
    tailFn rs cp x map = fun _ => ((Cert.Loss.lossR xr (Cert.Loss.colOf map) : ℝ) : EReal) := by
  -- the gathered input entries, the first summands and the second summands, row by row
  have hg : ∀ i : Fin 8192,
      Host.gather gather_S8192x8192_S8192x2_S8192_n_01_n_n_01_1_11 x
        (Cert.Loss.pairIdx bcast_S_S8192 bcast_S8192_S8192x1_0 concatenates_S8192x1_S8192x1_S8192x2_d1 map) (ix1 i)
        = ((xr i (Cert.Loss.colOf map i) : ℝ) : EReal) := fun i =>
    (Cert.Loss.gather_pairs_apply gather_S8192x8192_S8192x2_S8192_n_01_n_n_01_1_11_wf bcast_S_S8192
      bcast_S8192_S8192x1_0 concatenates_S8192x1_S8192x1_S8192x2_d1 x map i).trans (hx i _)
  have hk : ∀ i : Fin 8192,
      Host.gather gather_S8192_S8192x1_S8192_n_0_n_n_0_1_1
        (Host.log (Host.reduceAdd (fun i => shapeCast S16x8192 cp shapeCasts_S16x1x8192_S16x8192 i)
          (constant S_ FTy.f32 0x00000000#32) reducesTo_S16x8192_S8192_d0 h_S_) : FVec Ideal S8192 .f32)
        (broadcastInDim S8192x1 ![0] bcast_S8192_S8192x1_0 (Cert.Loss.wrapArr bcast_S_S8192 map)) (ix1 i)
        = ((Real.log (∑ r, Real.exp (xr r (Cert.Loss.colOf map i))) : ℝ) : EReal) := fun i =>
    (Cert.Loss.gather_mapped_apply gather_S8192_S8192x1_S8192_n_0_n_n_0_1_1 rfl rfl rfl rfl bcast_S_S8192
      bcast_S8192_S8192x1_0 _ map i).trans (colLse_apply cp x xr hx hcp _)
  funext j
  unfold tailFn
  rw [idx_pairs, wrapped_map]
  show Ideal.div (Ideal.div
        (Ideal.hostReduceAdd reducesTo_S8192_S_d0 _ (Ideal.ofBits .f32 0x00000000#32) j) (Ideal.ofBits .f32 0x46000000#32)
      + Ideal.div
        (Ideal.hostReduceAdd reducesTo_S8192_S_d0 _ (Ideal.ofBits .f32 0x00000000#32) j) (Ideal.ofBits .f32 0x46000000#32))
    (Ideal.ofBits .f32 0x40000000#32) = _
  rw [Ideal.hostReduceAdd_total reducesTo_S8192_S_d0 (fun b => b.elim0),
    Ideal.hostReduceAdd_total reducesTo_S8192_S_d0 (fun b => b.elim0), Ideal.ofBits_zero_f32, zero_add, zero_add,
    Cert.Loss.sum_idx1, Cert.Loss.sum_idx1]
  have s1 : ∀ a : Fin 8192,
      (subf (Host.log fun i => shapeCast S8192 rs shapeCasts_S8192x1_S8192 i : FVec Ideal S8192 .f32)
        (Host.gather gather_S8192x8192_S8192x2_S8192_n_01_n_n_01_1_11 x
          (Cert.Loss.pairIdx bcast_S_S8192 bcast_S8192_S8192x1_0 concatenates_S8192x1_S8192x1_S8192x2_d1 map))) (ix1 a)
        = ((Real.log (∑ k, Real.exp (xr a k)) - xr a (Cert.Loss.colOf map a) : ℝ) : EReal) := fun a => by
    show _ - _ = _
    rw [rowLse_apply rs x xr hx hrs a, hg a, ← EReal.coe_sub]
  have s2 : ∀ a : Fin 8192,
      (subf (Host.gather gather_S8192_S8192x1_S8192_n_0_n_n_0_1_1
          (Host.log (Host.reduceAdd (fun i => shapeCast S16x8192 cp shapeCasts_S16x1x8192_S16x8192 i)
            (constant S_ FTy.f32 0x00000000#32) reducesTo_S16x8192_S8192_d0 h_S_) : FVec Ideal S8192 .f32)
          (broadcastInDim S8192x1 ![0] bcast_S8192_S8192x1_0 (Cert.Loss.wrapArr bcast_S_S8192 map)))
        (Host.gather gather_S8192x8192_S8192x2_S8192_n_01_n_n_01_1_11 x
          (Cert.Loss.pairIdx bcast_S_S8192 bcast_S8192_S8192x1_0 concatenates_S8192x1_S8192x1_S8192x2_d1 map))) (ix1 a)
        = ((Real.log (∑ r, Real.exp (xr r (Cert.Loss.colOf map a))) - xr a (Cert.Loss.colOf map a) : ℝ) : EReal) := fun a => by
    show _ - _ = _
    rw [hk a, hg a, ← EReal.coe_sub]
  rw [Finset.sum_congr rfl fun a _ => s1 a, Finset.sum_congr rfl fun a _ => s2 a, Cert.Loss.coe_sum, Cert.Loss.coe_sum,
    Cert.Loss.div_8192, Cert.Loss.div_8192, ← EReal.coe_add, Cert.Loss.div_two]
  rfl

end Value

/-- THE KERNEL'S RESULT, over a float input whose entries are the reals xr, is the loss at the mapped columns. -/
theorem kernel_loss (c : Dev nD) (xr : Fin 8192 → Fin 8192 → ℝ)
    (hx : ∀ i k, sim m c (ix2 i k) = ((xr i k : ℝ) : EReal)) :
    Pipeline.afterTail₀ cfgs (dats (F := Ideal) m) 0 (V0 m) [hostOps1] c main_v35
      = (fun _ => ((Cert.Loss.lossR xr (Cert.Loss.colOf (m ((c : Thread nD τ).loc main_arg1))) : ℝ) : EReal) : FVec Ideal S_ .f32) := by
  refine (tail_eq m c).trans ?_
  refine tail_value _ _ (sim m c) _ xr hx (fun i => ?_) (fun b j => ?_)
  · rw [rowSums_final]
  · rw [colPartials_final]

end Cert.KernelIdeal.Tail

end
-- ==== Proof.FiniteInput.lean ====
/-
  What the precondition gives: every entry of the float input is a real number.

  The precondition reduces, with "and" over both axes, the comparison |x| < +infinity. A reduction by "and" into one
  element that is 1 had a 1 at every index, so |x j| is below the top of the extended reals at every index j, and an
  extended real whose absolute value is below the top is neither infinity: it is a real.
-/
import proofs.«406579_j16149077033577_3_alg».proof.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.StableHlo.Predicate

noncomputable section

namespace Cert.Loss

open Idealize.ShloMosaic Idealize.ShloMosaic.StableHlo.Predicate

/-- The pattern of plus infinity denotes the top of the extended reals. -/
theorem ofBits_pos_inf : Ideal.ofBits .f32 0x7F800000#32 = (⊤ : EReal) := by
  simp [Ideal.ofBits, Ideal.ieee]

/-- An extended real whose absolute value is below the top is a real. -/
theorem real_of_abs_lt_top (x : EReal) (h : max x (-x) < ⊤) : ∃ r : ℝ, x = (r : EReal) := by
  induction x using EReal.rec with
  | bot => simp at h
  | coe r => exact ⟨r, rfl⟩
  | top => simp at h

instance : Subsingleton Cert.Pre_finite_inputs.S_.Idx := ⟨fun _ _ => funext fun d => d.elim0⟩

/-- Under the precondition every entry of the float input is a real. -/
theorem real_of_pre [Cert.Pre_finite_inputs.Facts] (x : FVec Ideal Cert.Pre_finite_inputs.S8192x8192 .f32)
    (y : IVec Cert.Pre_finite_inputs.S8192 32)
    (h : Cert.Pre_finite_inputs.fn (F := Ideal) x y = fun _ => 1#1) (j : Cert.Pre_finite_inputs.S8192x8192.Idx) :
    ∃ r : ℝ, x j = (r : EReal) := by
  have h0 := congrFun h ValueIdx.ix0
  dsimp only [Cert.Pre_finite_inputs.fn] at h0
  have hj := Host.reduce_andi_all _ _ _ _ _ h0 j
  have hlt : Ideal.cmp .olt (max (x j) (-(x j))) (Ideal.ofBits .f32 0x7F800000#32) = 1#1 := hj
  rw [ofBits_pos_inf] at hlt
  unfold Ideal.cmp at hlt
  have := (ofBool_eq_one_iff _).mp hlt
  exact real_of_abs_lt_top (x j) (by simpa using this)

end Cert.Loss

end
-- ==== Proof.lean ====
/-
  Equivalence of a fused cross-entropy kernel with its log-softmax reference, over the extended reals.

  The kernel streams the [8192, 8192] matrix once in 16 blocks of 512 rows; per block it takes exp of the block and stores
  the block's row sums and the block's column sums. After the region the host adds the 16 column partial sums, takes the
  logarithm of both sums, reads the matrix and the column logarithms at the column the integer input names for each row,
  and averages: with L i the log-sum-exp of row i, K j that of column j and c i the named column, the result is
  ((sum_i (L i - x i (c i))) / 8192 + (sum_i (K (c i) - x i (c i))) / 8192) / 2.
  The reference computes the two log-softmax tables with the usual shift by the maximum, reads them at the same
  (i, c i), negates and averages. Over finite inputs the shift is a real and cancels exactly (log of a sum of shifted
  exponentials is the log of the sum minus the shift), so every summand of the reference is minus the kernel's, and the
  two results are one real number. The integer input is unrestricted: both programs wrap a negative index and the
  gather clamps it, so both read the same column whatever the word.

  The three frames are the generated ones (the reference's from its run). The ideal pass rewrote nothing, so the
  idealization claim has no conjunct.
-/
import proofs.«406579_j16149077033577_3_alg».proof.Defs
import proofs.«406579_j16149077033577_3_alg».proof.Proof.Gen.Kernel
import proofs.«406579_j16149077033577_3_alg».proof.Proof.Gen.Kernel.Skeleton
import proofs.«406579_j16149077033577_3_alg».proof.Proof.Gen.Kernel.Launch
import proofs.«406579_j16149077033577_3_alg».proof.Proof.Gen.Kernel.Points
import proofs.«406579_j16149077033577_3_alg».proof.Proof.Gen.Kernel.Frame
import proofs.«406579_j16149077033577_3_alg».proof.Proof.Gen.KernelIdeal
import proofs.«406579_j16149077033577_3_alg».proof.Proof.Gen.KernelIdeal.Skeleton
import proofs.«406579_j16149077033577_3_alg».proof.Proof.Gen.KernelIdeal.Launch
import proofs.«406579_j16149077033577_3_alg».proof.Proof.Gen.KernelIdeal.Points
import proofs.«406579_j16149077033577_3_alg».proof.Proof.Gen.KernelIdeal.Frame
import proofs.«406579_j16149077033577_3_alg».proof.Proof.Gen.ReferenceIdeal
import proofs.«406579_j16149077033577_3_alg».proof.Proof.Gen.Pre_finite_inputs
import proofs.«406579_j16149077033577_3_alg».proof.Proof.RefRun
import proofs.«406579_j16149077033577_3_alg».proof.Proof.RefLoss
import proofs.«406579_j16149077033577_3_alg».proof.Proof.KernelLoss
import proofs.«406579_j16149077033577_3_alg».proof.Proof.FiniteInput
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- Both programs end with the loss of the real matrix the float input is, at the columns the integer input names. -/
theorem algebraic : Cert.algebraic_KernelIdeal_ReferenceIdeal := by
  intro m ρ m' ρ' hpre hagree
  have hfin : ∀ (c : Dev Cert.KernelIdeal.nD) (i k : Fin 8192), ∃ r : ℝ,
      Cert.KernelIdeal.Sums.sim m c (ix2 i k) = ((r : ℝ) : EReal) := fun c i k =>
    Cert.Loss.real_of_pre _ _ (hpre c) (ix2 i k)
  choose xr hxr using hfin
  refine ⟨fun c => (fun _ => ((Cert.Loss.lossR (xr c) (Cert.Loss.colOf (m ((c : Thread Cert.KernelIdeal.nD Cert.KernelIdeal.τ).loc Cert.KernelIdeal.main_arg1))) : ℝ) : EReal)), ?_, ?_⟩
  · refine (θ_run Cert.KernelIdeal.defs _ _).mono (fun r h c => ⟨?_, ?_, ?_⟩) (Cert.KernelIdeal.Gen.run_main (F := Ideal) m ρ)
    · exact ((h c).2 Cert.KernelIdeal.main_v35 (Pipeline.mem_restRefs_of Cert.KernelIdeal.main_v35 (by decide) (by decide))).trans
        (Cert.KernelIdeal.Tail.kernel_loss m c (xr c) (hxr c))
    · exact ((h c).1 0).trans (((Cert.KernelIdeal.Gen.dats m 0 c).arrAt_in 0 rfl _).trans
        ((Cert.KernelIdeal.Gen.A_eq m c 0).trans (Cert.KernelIdeal.Gen.V_main_arg0 m c)))
    · exact ((h c).2 Cert.KernelIdeal.main_arg1 (Pipeline.mem_restRefs_of Cert.KernelIdeal.main_arg1 (by decide) (by decide))).trans
        (Cert.KernelIdeal.Gen.W_main_arg1 m (Cert.KernelIdeal.Gen.dats m) c)
  · refine (θ_run Cert.ReferenceIdeal.defs _ _).mono (fun r h c => ⟨(h c).1.trans ?_, (h c).2⟩)
      (Cert.ReferenceIdeal.RunP.run (F := Ideal) m' ρ')
    rw [Cert.ReferenceIdeal.ReadP.val_main_v38_eq, (hagree c).1, (hagree c).2]
    exact Cert.ReferenceIdeal.RefValue.ref_loss _ _ (xr c) (hxr c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
